-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x19x512x512 : Shape := ⟨4, ![16, 19, 512, 512]⟩
abbrev S16x512x512 : Shape := ⟨3, ![16, 512, 512]⟩
abbrev S_ : Shape := ⟨0, ![]⟩

class Facts : Prop where
  bcast_S_S16x19x512x512 : S_.BroadcastsInDim S16x19x512x512 (![] : Fin 0 → Fin S16x19x512x512.rank)
  reducesTo_S16x19x512x512_S_d0_1_2_3 : S16x19x512x512.ReducesTo [0, 1, 2, 3] S_
  h_S_ : 0 < S_.numel
  bcast_S_S16x512x512 : S_.BroadcastsInDim S16x512x512 (![] : Fin 0 → Fin S16x512x512.rank)
  reducesTo_S16x512x512_S_d0_1_2 : S16x512x512.ReducesTo [0, 1, 2] S_

variable [Facts]

def fn {F : FTy → Type} [FloatOps F] (main_arg0 : FVec F S16x19x512x512 .f32) (main_arg1 : IVec S16x512x512 32) : IVec S_ 1 :=
  let main_v0 : FVec F S16x19x512x512 .f32 := Host.absf main_arg0
  let main_cst : FVec F S_ .f32 := constant S_ .f32 0x7F800000#32
  let main_v1 : FVec F S16x19x512x512 .f32 := broadcastInDim S16x19x512x512 ![] bcast_S_S16x19x512x512 main_cst
  let main_v2 : IVec S16x19x512x512 1 := cmpf .olt main_v0 main_v1
  let main_c : IVec S_ 1 := constantI S_ 1 1#1
  let main_v3 : IVec S_ 1 := (fun x v => Host.reduce IntOp.andi x v reducesTo_S16x19x512x512_S_d0_1_2_3 h_S_) main_v2 main_c
  let main_c_0 : IVec S_ 32 := constantI S_ 32 0#32
  let main_v4 : IVec S16x512x512 32 := broadcastInDim S16x512x512 ![] bcast_S_S16x512x512 main_c_0
  let main_v5 : IVec S16x512x512 1 := cmpi .sge main_arg1 main_v4
  let main_c_1 : IVec S_ 1 := constantI S_ 1 1#1
  let main_v6 : IVec S_ 1 := (fun x v => Host.reduce IntOp.andi x v reducesTo_S16x512x512_S_d0_1_2 h_S_) main_v5 main_c_1
  let main_v7 : IVec S_ 1 := andi main_v3 main_v6
  let main_c_2 : IVec S_ 32 := constantI S_ 32 19#32
  let main_v8 : IVec S16x512x512 32 := broadcastInDim S16x512x512 ![] bcast_S_S16x512x512 main_c_2
  let main_v9 : IVec S16x512x512 1 := cmpi .slt main_arg1 main_v8
  let main_c_3 : IVec S_ 1 := constantI S_ 1 1#1
  let main_v10 : IVec S_ 1 := (fun x v => Host.reduce IntOp.andi x v reducesTo_S16x512x512_S_d0_1_2 h_S_) main_v9 main_c_3
  let main_v11 : IVec S_ 1 := andi main_v7 main_v10
  main_v11
-- ==== Kernel.lean ====
abbrev S16x19x512x512 : Shape := ⟨4, ![16, 19, 512, 512]⟩
abbrev S16x512x512 : Shape := ⟨3, ![16, 512, 512]⟩
abbrev S16x1x1 : Shape := ⟨3, ![16, 1, 1]⟩
abbrev S1x19x256x512 : Shape := ⟨4, ![1, 19, 256, 512]⟩
abbrev S1x512x512 : Shape := ⟨3, ![1, 512, 512]⟩
abbrev S1x1x1 : Shape := ⟨3, ![1, 1, 1]⟩
abbrev S512x512 : Shape := ⟨2, ![512, 512]⟩
abbrev S1x1 : Shape := ⟨2, ![1, 1]⟩
abbrev S1x256x512 : Shape := ⟨3, ![1, 256, 512]⟩
abbrev S256x512 : Shape := ⟨2, ![256, 512]⟩
abbrev S1x1x256x512 : Shape := ⟨4, ![1, 1, 256, 512]⟩
abbrev S1 : Shape := ⟨1, ![1]⟩
abbrev S_ : Shape := ⟨0, ![]⟩

abbrev nBuf : Space → Nat
  | .hbm => 7
  | .vmem => 8
  | .smem => 0
  | _ => 0

abbrev bufTy : (tb : Table) → Fin (tcTables nBuf tb) → BufTy
  | .hbm, ⟨0, _⟩ => ⟨S16x19x512x512, .f32⟩
  | .hbm, ⟨1, _⟩ => ⟨S16x512x512, .i32⟩
  | .hbm, ⟨2, _⟩ => ⟨S16x1x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S1x19x256x512, .f32⟩
  | .local _ .vmem, ⟨1, _⟩ => ⟨S1x19x256x512, .f32⟩
  | .local _ .vmem, ⟨2, _⟩ => ⟨S1x512x512, .i32⟩
  | .local _ .vmem, ⟨3, _⟩ => ⟨S1x512x512, .i32⟩
  | .local _ .vmem, ⟨4, _⟩ => ⟨S1x1x1, .f32⟩
  | .local _ .vmem, ⟨5, _⟩ => ⟨S1x1x1, .f32⟩
  | .local _ .vmem, ⟨6, _⟩ => ⟨S512x512, .f32⟩
  | .local _ .vmem, ⟨7, _⟩ => ⟨S1x1, .f32⟩
  | _, _ => ⟨S16x19x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 3 → Nat :=
  let c0 : Index := 0#32
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  let c0_1 : Index := 0#32
  ![0, v5.toNat, 0]
def k0_off2 (i : grid0.Coords) : Fin 2 → Nat :=
  let arg1 : BitVec 32 := BitVec.ofNat 32 (i 1).val
  let c256_i32 : BitVec 32 := 256#32
  let v3 : BitVec 32 := Scalar.muli arg1 c256_i32
  let v4 : BitVec 32 := v3
  let v8 : Index := Scalar.indexCast v4
  let c0_2 : Index := 0#32
  ![v8.toNat, 0]
def k0_cond2 (i : grid0.Coords) : BitVec 1 :=
  let arg1 : BitVec 32 := BitVec.ofNat 32 (i 1).val
  let c1_i32_87 : BitVec 32 := 1#32
  let v196 : BitVec 1 := Scalar.cmpi .eq arg1 c1_i32_87
  let v197 : BitVec 32 := Scalar.extui v196
  let c0_i32_88 : BitVec 32 := 0#32
  let v198 : BitVec 1 := Scalar.cmpi .ne v197 c0_i32_88
  v198

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x19x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  iota_S512x512_d0_w32 : S512x512.Iotas .tc 32 [0]
  iota_S512x512_d1_w32 : S512x512.Iotas .tc 32 [1]
  rotates_S512x512_d0 : S512x512.Rotates 0 none
  rotates_S512x512_d1 : S512x512.Rotates 1 none
  natLt_1_32 : 1 < 32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  h_S1x256x512 : 0 < S1x256x512.numel
  shapeCasts_S1x256x512_S256x512 : S1x256x512.ShapeCasts S256x512
  h_S256x512 : 0 < S256x512.numel
  inb_S1x19x256x512_S1x1x256x512_0_0_0_0 : ∀ a, (![0, 0, 0, 0] : Fin 4 → Nat) a + S1x1x256x512.size a ≤ S1x19x256x512.size a
  h_S1x1x256x512 : 0 < S1x1x256x512.numel
  shapeCasts_S1x1x256x512_S256x512 : S1x1x256x512.ShapeCasts S256x512
  inb_S1x19x256x512_S1x1x256x512_0_1_0_0 : ∀ a, (![0, 1, 0, 0] : Fin 4 → Nat) a + S1x1x256x512.size a ≤ S1x19x256x512.size a
  inb_S1x19x256x512_S1x1x256x512_0_2_0_0 : ∀ a, (![0, 2, 0, 0] : Fin 4 → Nat) a + S1x1x256x512.size a ≤ S1x19x256x512.size a
  inb_S1x19x256x512_S1x1x256x512_0_3_0_0 : ∀ a, (![0, 3, 0, 0] : Fin 4 → Nat) a + S1x1x256x512.size a ≤ S1x19x256x512.size a
  inb_S1x19x256x512_S1x1x256x512_0_4_0_0 : ∀ a, (![0, 4, 0, 0] : Fin 4 → Nat) a + S1x1x256x512.size a ≤ S1x19x256x512.size a
  inb_S1x19x256x512_S1x1x256x512_0_5_0_0 : ∀ a, (![0, 5, 0, 0] : Fin 4 → Nat) a + S1x1x256x512.size a ≤ S1x19x256x512.size a
  inb_S1x19x256x512_S1x1x256x512_0_6_0_0 : ∀ a, (![0, 6, 0, 0] : Fin 4 → Nat) a + S1x1x256x512.size a ≤ S1x19x256x512.size a
  inb_S1x19x256x512_S1x1x256x512_0_7_0_0 : ∀ a, (![0, 7, 0, 0] : Fin 4 → Nat) a + S1x1x256x512.size a ≤ S1x19x256x512.size a
  inb_S1x19x256x512_S1x1x256x512_0_8_0_0 : ∀ a, (![0, 8, 0, 0] : Fin 4 → Nat) a + S1x1x256x512.size a ≤ S1x19x256x512.size a
  inb_S1x19x256x512_S1x1x256x512_0_9_0_0 : ∀ a, (![0, 9, 0, 0] : Fin 4 → Nat) a + S1x1x256x512.size a ≤ S1x19x256x512.size a
  inb_S1x19x256x512_S1x1x256x512_0_10_0_0 : ∀ a, (![0, 10, 0, 0] : Fin 4 → Nat) a + S1x1x256x512.size a ≤ S1x19x256x512.size a
  inb_S1x19x256x512_S1x1x256x512_0_11_0_0 : ∀ a, (![0, 11, 0, 0] : Fin 4 → Nat) a + S1x1x256x512.size a ≤ S1x19x256x512.size a
  inb_S1x19x256x512_S1x1x256x512_0_12_0_0 : ∀ a, (![0, 12, 0, 0] : Fin 4 → Nat) a + S1x1x256x512.size a ≤ S1x19x256x512.size a
  inb_S1x19x256x512_S1x1x256x512_0_13_0_0 : ∀ a, (![0, 13, 0, 0] : Fin 4 → Nat) a + S1x1x256x512.size a ≤ S1x19x256x512.size a
  inb_S1x19x256x512_S1x1x256x512_0_14_0_0 : ∀ a, (![0, 14, 0, 0] : Fin 4 → Nat) a + S1x1x256x512.size a ≤ S1x19x256x512.size a
  inb_S1x19x256x512_S1x1x256x512_0_15_0_0 : ∀ a, (![0, 15, 0, 0] : Fin 4 → Nat) a + S1x1x256x512.size a ≤ S1x19x256x512.size a
  inb_S1x19x256x512_S1x1x256x512_0_16_0_0 : ∀ a, (![0, 16, 0, 0] : Fin 4 → Nat) a + S1x1x256x512.size a ≤ S1x19x256x512.size a
  inb_S1x19x256x512_S1x1x256x512_0_17_0_0 : ∀ a, (![0, 17, 0, 0] : Fin 4 → Nat) a + S1x1x256x512.size a ≤ S1x19x256x512.size a
  inb_S1x19x256x512_S1x1x256x512_0_18_0_0 : ∀ a, (![0, 18, 0, 0] : Fin 4 → Nat) a + S1x1x256x512.size a ≤ S1x19x256x512.size a
  shapeCasts_S256x512_S1x256x512 : S256x512.ShapeCasts S1x256x512
  reduces_S1x256x512_S1 : S1x256x512.Reduces [1, 2] S1
  shapeCasts_S1_S1x1x1 : S1.ShapeCasts S1x1x1
  inpos_S1x1x1_p0_0_0 : ∀ a, (![0, 0, 0] : Fin 3 → Nat) a < S1x1x1.size a
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S16x1x1_S_d0_1_2 : S16x1x1.ReducesTo [0, 1, 2] S_
  h_S_ : 0 < S_.numel
  hrank0 : 0 < grid0.rank
  k0_mult1_dvd : ∀ i : grid0.Coords, 256 ∣ (k0_mult1 i).toNat
  k0_off1_inb : ∀ i : grid0.Coords, ∀ a, (k0_off1 i) a + S1x256x512.size a ≤ S1x512x512.size a
  k0_off2_inb : ∀ i : grid0.Coords, ∀ a, (k0_off2 i) a + S256x512.size a ≤ S512x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x19x256x512.size a ≤ S16x19x512x512.size a
  hwx0_0 : ∀ i : grid0.Coords, EltTy.bits .f32 = 32 ∨ (Rect.block (s := S16x19x512x512) S1x19x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S16x512x512.size a
  hwx0_1 : ∀ i : grid0.Coords, EltTy.bits .i32 = 32 ∨ (Rect.block (s := S16x512x512) S1x512x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S16x1x1.size a
  hwx0_2 : ∀ i : grid0.Coords, EltTy.bits .f32 = 32 ∨ (Rect.block (s := S16x1x1) S1x1x1.size (cc0_transform_2 i) (hinb0_2 i)).WholeWords (EltTy.packing .f32)

variable [Facts₀]

abbrev win0_0 : Pipeline.Window sig grid0 :=
  Pipeline.Window.ofSpec (Memref.whole main_arg0) S1x19x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x19x512x512 : Shape := ⟨4, ![16, 19, 512, 512]⟩
abbrev S16x512x512 : Shape := ⟨3, ![16, 512, 512]⟩
abbrev S_ : Shape := ⟨0, ![]⟩
abbrev S16x1x512x512 : Shape := ⟨4, ![16, 1, 512, 512]⟩
abbrev S16x1x512x512x1 : Shape := ⟨5, ![16, 1, 512, 512, 1]⟩
abbrev S1 : Shape := ⟨1, ![1]⟩
abbrev S1x1x1x1x1 : Shape := ⟨5, ![1, 1, 1, 1, 1]⟩

abbrev nBuf : Space → Nat
  | .hbm => 65
  | .vmem => 0
  | .smem => 0
  | _ => 0

abbrev bufTy : (tb : Table) → Fin (tcTables nBuf tb) → BufTy
  | .hbm, ⟨0, _⟩ => ⟨S16x19x512x512, .f32⟩
  | .hbm, ⟨1, _⟩ => ⟨S16x512x512, .i32⟩
  | .hbm, ⟨2, _⟩ => ⟨S16x512x512, .f32⟩
  | .hbm, ⟨3, _⟩ => ⟨S_, .f32⟩
  | .hbm, ⟨4, _⟩ => ⟨S_, .f32⟩
  | .hbm, ⟨5, _⟩ => ⟨S16x512x512, .f32⟩
  | .hbm, ⟨6, _⟩ => ⟨S_, .f32⟩
  | .hbm, ⟨7, _⟩ => ⟨S_, .f32⟩
  | .hbm, ⟨8, _⟩ => ⟨S16x512x512, .f32⟩
  | .hbm, ⟨9, _⟩ => ⟨S16x512x512, .f32⟩
  | .hbm, ⟨10, _⟩ => ⟨S_, .f32⟩
  | .hbm, ⟨11, _⟩ => ⟨S16x512x512, .f32⟩
  | .hbm, ⟨12, _⟩ => ⟨S16x512x512, .i1⟩
  | .hbm, ⟨13, _⟩ => ⟨S16x512x512, .f32⟩
  | .hbm, ⟨14, _⟩ => ⟨S_, .f32⟩
  | .hbm, ⟨15, _⟩ => ⟨S16x512x512, .f32⟩
  | .hbm, ⟨16, _⟩ => ⟨S_, .f32⟩
  | .hbm, ⟨17, _⟩ => ⟨S16x512x512, .f32⟩
  | .hbm, ⟨18, _⟩ => ⟨S16x512x512, .f32⟩
  | .hbm, ⟨19, _⟩ => ⟨S16x1x512x512, .f32⟩
  | .hbm, ⟨20, _⟩ => ⟨S16x19x512x512, .f32⟩
  | .hbm, ⟨21, _⟩ => ⟨S16x19x512x512, .f32⟩
  | .hbm, ⟨22, _⟩ => ⟨S16x19x512x512, .f32⟩
  | .hbm, ⟨23, _⟩ => ⟨S_, .f32⟩
  | .hbm, ⟨24, _⟩ => ⟨S16x512x512, .f32⟩
  | .hbm, ⟨25, _⟩ => ⟨S16x1x512x512, .f32⟩
  | .hbm, ⟨26, _⟩ => ⟨S16x1x512x512, .f32⟩
  | .hbm, ⟨27, _⟩ => ⟨S16x19x512x512, .f32⟩
  | .hbm, ⟨28, _⟩ => ⟨S16x19x512x512, .f32⟩
  | .hbm, ⟨29, _⟩ => ⟨S16x1x512x512, .i32⟩
  | .hbm, ⟨30, _⟩ => ⟨S_, .i32⟩
  | .hbm, ⟨31, _⟩ => ⟨S16x1x512x512, .i32⟩
  | .hbm, ⟨32, _⟩ => ⟨S16x1x512x512, .i1⟩
  | .hbm, ⟨33, _⟩ => ⟨S_, .i32⟩
  | .hbm, ⟨34, _⟩ => ⟨S16x1x512x512, .i32⟩
  | .hbm, ⟨35, _⟩ => ⟨S16x1x512x512, .i32⟩
  | .hbm, ⟨36, _⟩ => ⟨S16x1x512x512, .i32⟩
  | .hbm, ⟨37, _⟩ => ⟨S16x1x512x512x1, .i32⟩
  | .hbm, ⟨38, _⟩ => ⟨S1, .i32⟩
  | .hbm, ⟨39, _⟩ => ⟨S_, .i32⟩
  | .hbm, ⟨40, _⟩ => ⟨S16x1x512x512x1, .i32⟩
  | .hbm, ⟨41, _⟩ => ⟨S16x1x512x512x1, .i1⟩
  | .hbm, ⟨42, _⟩ => ⟨S1x1x1x1x1, .i32⟩
  | .hbm, ⟨43, _⟩ => ⟨S16x1x512x512x1, .i32⟩
  | .hbm, ⟨44, _⟩ => ⟨S16x1x512x512x1, .i1⟩
  | .hbm, ⟨45, _⟩ => ⟨S16x1x512x512x1, .i1⟩
  | .hbm, ⟨46, _⟩ => ⟨S_, .i1⟩
  | .hbm, ⟨47, _⟩ => ⟨S16x1x512x512, .i1⟩
  | .hbm, ⟨48, _⟩ => ⟨S16x1x512x512, .f32⟩
  | .hbm, ⟨49, _⟩ => ⟨S_, .f32⟩
  | .hbm, ⟨50, _⟩ => ⟨S16x1x512x512, .f32⟩
  | .hbm, ⟨51, _⟩ => ⟨S16x1x512x512, .f32⟩
  | .hbm, ⟨52, _⟩ => ⟨S16x512x512, .f32⟩
  | .hbm, ⟨53, _⟩ => ⟨S16x512x512, .f32⟩
  | .hbm, ⟨54, _⟩ => ⟨S_, .f32⟩
  | .hbm, ⟨55, _⟩ => ⟨S16x512x512, .f32⟩
  | .hbm, ⟨56, _⟩ => ⟨S16x512x512, .f32⟩
  | .hbm, ⟨57, _⟩ => ⟨S_, .f32⟩
  | .hbm, ⟨58, _⟩ => ⟨S16x512x512, .f32⟩
  | .hbm, ⟨59, _⟩ => ⟨S16x512x512, .f32⟩
  | .hbm, ⟨60, _⟩ => ⟨S16x512x512, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | _, _ => ⟨S16x19x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_cst : Ref sig .tc := ⟨.hbm, 14, rfl⟩
abbrev main_call0_v0 : Ref sig .tc := ⟨.hbm, 15, rfl⟩
abbrev main_call0_cst_0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_cst_1 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_v9 : Ref sig .tc := ⟨.hbm, 28, rfl⟩
abbrev main_v10 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_cst : Ref sig .tc := ⟨.hbm, 49, rfl⟩
abbrev main_call1_v14 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_cst_2 : Ref sig .tc := ⟨.hbm, 54, rfl⟩
abbrev main_v14 : Ref sig .tc := ⟨.hbm, 55, rfl⟩
abbrev main_v15 : Ref sig .tc := ⟨.hbm, 56, rfl⟩
abbrev main_cst_3 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_cst_4 : Ref sig .tc := ⟨.hbm, 61, rfl⟩
abbrev main_v19 : Ref sig .tc := ⟨.hbm, 62, rfl⟩
abbrev main_cst_5 : Ref sig .tc := ⟨.hbm, 63, rfl⟩
abbrev main_v20 : Ref sig .tc := ⟨.hbm, 64, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S16x512x512_S16x512x512_w1s1p0_0_w3s1p1_1_w3s1p1_1 : S16x512x512.ReduceWindows (![1, 3, 3] : Fin 3 → Nat) ![1, 1, 1] ![0, 1, 1] ![0, 1, 1] S16x512x512
  h_S_ : 0 < S_.numel
  bcast_S_S16x512x512 : S_.BroadcastsInDim S16x512x512 (![] : Fin 0 → Fin S16x512x512.rank)
  reducesTo_S16x19x512x512_S16x512x512_d1 : S16x19x512x512.ReducesTo [1] S16x512x512
  bcast_S16x512x512_S16x1x512x512_0_2_3 : S16x512x512.BroadcastsInDim S16x1x512x512 (![0, 2, 3] : Fin 3 → Fin S16x1x512x512.rank)
  bcast_S16x1x512x512_S16x19x512x512_0_1_2_3 : S16x1x512x512.BroadcastsInDim S16x19x512x512 (![0, 1, 2, 3] : Fin 4 → Fin S16x19x512x512.rank)
  bcast_S_S16x1x512x512 : S_.BroadcastsInDim S16x1x512x512 (![] : Fin 0 → Fin S16x1x512x512.rank)
  shapeCasts_S16x1x512x512_S16x1x512x512x1 : S16x1x512x512.ShapeCasts S16x1x512x512x1
  bcast_S_S16x1x512x512x1 : S_.BroadcastsInDim S16x1x512x512x1 (![] : Fin 0 → Fin S16x1x512x512x1.rank)
  bcast_S1_S1x1x1x1x1_4 : S1.BroadcastsInDim S1x1x1x1x1 (![4] : Fin 1 → Fin S1x1x1x1x1.rank)
  bcast_S1x1x1x1x1_S16x1x512x512x1_0_1_2_3_4 : S1x1x1x1x1.BroadcastsInDim S16x1x512x512x1 (![0, 1, 2, 3, 4] : Fin 5 → Fin S16x1x512x512x1.rank)
  reducesTo_S16x1x512x512x1_S16x1x512x512_d4 : S16x1x512x512x1.ReducesTo [4] S16x1x512x512
  shapeCasts_S16x1x512x512_S16x512x512 : S16x1x512x512.ShapeCasts S16x512x512
  reducesTo_S16x512x512_S_d0_1_2 : S16x512x512.ReducesTo [0, 1, 2] S_
  gather_S16x19x512x512_S16x1x512x512x1_S16x1x512x512_n_1_023_023_1_4_1111_wf : GatherDims.WF S16x19x512x512 S16x1x512x512x1 S16x1x512x512 [] [1] [0, 2, 3] [1] [0, 2, 3] 4 ![1, 1, 1, 1]

variable [Facts₀]

def gather_S16x19x512x512_S16x1x512x512x1_S16x1x512x512_n_1_023_023_1_4_1111 : GatherDims S16x19x512x512 S16x1x512x512x1 S16x1x512x512 where
  offsetDims := []
  collapsedSliceDims := [1]
  operandBatchingDims := [0, 2, 3]
  startIndicesBatchingDims := [0, 2, 3]
  startIndexMap := [1]
  indexVectorDim := 4
  sliceSizes := ![1, 1, 1, 1]
  wf := gather_S16x19x512x512_S16x1x512x512x1_S16x1x512x512_n_1_023_023_1_4_1111_wf

class Facts : Prop extends Facts₀ where

variable [Facts]
-- ==== Proof.Spec.lean ====
/-
  The edge-weighted cross-entropy, as ONE function of the two argument arrays, index by index over the extended reals.

  A pixel's label, read as a real, is compared with its eight neighbours: `dil` is the largest and `ero` the smallest
  label in the 3 x 3 window clipped to the image (outside the image the window holds the lattice's bottom for the maximum
  and its top for the minimum, so a border pixel sees only the neighbours it has). The window is taken SEPARABLY: first
  along the rows (an entry, the one below, the one above), then the same along the columns of that result. A pixel is an
  edge pixel when `dil - ero` is positive, and its weight is `1 + edge * 1`.

  The cross-entropy at a pixel is `log (sum over the classes of exp p) - p at the pixel's label`, the second term spelt as
  the sum over the classes of `p` where the class is the label and `0` elsewhere. The result is the sum over all pixels of
  cross-entropy times weight, divided by the number of pixels.
-/
import Idealize.ShloMosaic.PureOps.Ideal
import Idealize.ShloMosaic.PureOps.Ideal.Laws
import Idealize.ShloMosaic.Lib.ValueIdx

noncomputable section

open scoped BigOperators

namespace Cert.EdgeLoss

open Idealize.ShloMosaic Idealize.ShloMosaic.ValueIdx

/-- The predictions' shape: batch, class, row, column. -/
abbrev SP : Shape := ⟨4, ![16, 19, 512, 512]⟩
/-- The labels' shape: batch, row, column. -/
abbrev ST : Shape := ⟨3, ![16, 512, 512]⟩

/-- The three float literals both programs carry, kept as their words. -/
abbrev zeroW : EReal := Ideal.ofBits .f32 0x00000000#32
abbrev oneW : EReal := Ideal.ofBits .f32 0x3F800000#32
abbrev countW : EReal := Ideal.ofBits .f32 0x4A800000#32

/-! ## The 3 x 3 window, separably -/

/-- The entry one step further along an axis of extent 512; `fill` past the end. -/
def nextOr {α : Type} (fill : α) (f : Fin 512 → α) (i : Fin 512) : α :=
  if h : i.val + 1 < 512 then f ⟨i.val + 1, h⟩ else fill

/-- The entry one step back; `fill` before the start. -/
def prevOr {α : Type} (fill : α) (f : Fin 512 → α) (i : Fin 512) : α :=
  if h : 0 < i.val then f ⟨i.val - 1, by omega⟩ else fill

/-- The largest of an entry, the one below it and the one above it. -/
def rowMax (L : Fin 512 → Fin 512 → EReal) (r q : Fin 512) : EReal :=
  max (max (L r q) (nextOr ⊥ (fun r' => L r' q) r)) (prevOr ⊥ (fun r' => L r' q) r)

/-- The largest label in the clipped 3 x 3 window: `rowMax`, its right neighbour and its left one. -/
def dil (L : Fin 512 → Fin 512 → EReal) (r q : Fin 512) : EReal :=
  max (max (rowMax L r q) (nextOr ⊥ (fun q' => rowMax L r q') q)) (prevOr ⊥ (fun q' => rowMax L r q') q)

/-- The smallest of an entry, the one below it and the one above it. -/
def rowMin (L : Fin 512 → Fin 512 → EReal) (r q : Fin 512) : EReal :=
  min (min (L r q) (nextOr ⊤ (fun r' => L r' q) r)) (prevOr ⊤ (fun r' => L r' q) r)

/-- The smallest label in the clipped 3 x 3 window. -/
def ero (L : Fin 512 → Fin 512 → EReal) (r q : Fin 512) : EReal :=
  min (min (rowMin L r q) (nextOr ⊤ (fun q' => rowMin L r q') q)) (prevOr ⊤ (fun q' => rowMin L r q') q)

/-- The comparison `dil - ero > 0`, as the bit both programs compute. -/
def edgeBit (L : Fin 512 → Fin 512 → EReal) (r q : Fin 512) : BitVec 1 :=
  Ideal.cmp .ogt (dil L r q - ero L r q) zeroW

/-- A pixel's weight over one image of labels: `1 + edge * 1`. -/
def wgtOf (L : Fin 512 → Fin 512 → EReal) (r q : Fin 512) : EReal :=
  oneW + (((edgeBit L r q).toNat : ℝ) : EReal) * oneW

/-! ## The loss -/

/-- Batch `b`'s labels as reals. -/
def lab (t : ST.Idx → BitVec 32) (b : Fin 16) (r q : Fin 512) : EReal :=
  (((t (ix3 b r q)).toInt : ℝ) : EReal)

/-- The weight of pixel `(b, r, q)`. -/
def wgt (t : ST.Idx → BitVec 32) (b : Fin 16) (r q : Fin 512) : EReal := wgtOf (lab t b) r q

/-- The cross-entropy of one pixel from its nineteen class scores `y` and its label word `w`. -/
def cePix (y : Fin 19 → EReal) (w : BitVec 32) : EReal :=
  Ideal.log (∑ c : Fin 19, Ideal.exp (y c)) - ∑ c : Fin 19, (if w = BitVec.ofNat 32 c.val then y c else 0)

/-- The cross-entropy at pixel `(b, r, q)`. -/
def ce (p : SP.Idx → EReal) (t : ST.Idx → BitVec 32) (b : Fin 16) (r q : Fin 512) : EReal :=
  cePix (fun c => p (ix4 b c r q)) (t (ix3 b r q))

/-- One pixel's contribution. -/
def term (p : SP.Idx → EReal) (t : ST.Idx → BitVec 32) (b : Fin 16) (r q : Fin 512) : EReal :=
  ce p t b r q * wgt t b r q

/-- The sum over all pixels. -/
def total (p : SP.Idx → EReal) (t : ST.Idx → BitVec 32) : EReal :=
  ∑ b : Fin 16, ∑ r : Fin 512, ∑ q : Fin 512, term p t b r q

/-- The result: the mean over the `2 ^ 22` pixels. -/
def G (p : SP.Idx → EReal) (t : ST.Idx → BitVec 32) : (⟨0, ![]⟩ : Shape).Idx → EReal :=
  fun _ => Ideal.div (total p t) countW

/-- Row `256 * h + r'` of the image: the rows of tile `h`. -/
def tileRow (h : Fin 2) (r' : Fin 256) : Fin 512 := ⟨256 * h.val + r'.val, by omega⟩

/-- The sum over the `256 x 512` pixels of tile `h` of batch `b`. -/
def tileSum (p : SP.Idx → EReal) (t : ST.Idx → BitVec 32) (b : Fin 16) (h : Fin 2) : EReal :=
  ∑ r' : Fin 256, ∑ q : Fin 512, term p t b (tileRow h r') q

end Cert.EdgeLoss

end
-- ==== Proof.Window.lean ====
/-
  The host's 3 x 3 window reduction read at a pixel: the fold of `max` (of `min`) from the lattice's bottom (top) over the
  nine window positions, padding included, is the separable clipped maximum `dil` (minimum `ero`) of the image the pixel
  lies in.
-/
import proofs.«402932_j11811160064796_3_alg».proof.Proof.Spec
import Idealize.ShloMosaic.PureOps.Contract

noncomputable section

namespace Cert.EdgeLoss

open Idealize.ShloMosaic Idealize.ShloMosaic.ValueIdx

/-! ## The nine window positions -/

/-- The window's shape: one batch entry, three rows, three columns. -/
private abbrev WS : Shape := ⟨3, ![1, 3, 3]⟩

private theorem ws_numel : WS.numel = 9 := by decide

/-- Position `k` of the window, in row-major order, is row `k / 3` and column `k % 3` of batch entry `0`. -/
private theorem ws_coord : ∀ (k : Fin 9) (a : Fin 3),
    (WS.rowMajor.symm (k.cast ws_numel.symm) a).val = (![0, k.val / 3, k.val % 3] : Fin 3 → Nat) a := by decide

/-- A fold over the positions below `n` is the fold over the positions below any `m` equal to `n`. -/
private theorem foldl_finRange_cast {β : Type} {n m : Nat} (h : n = m) (F : β → Fin n → β) (v : β) :
    (List.finRange n).foldl F v = (List.finRange m).foldl (fun r i => F r (i.cast h.symm)) v := by
  subst h; rfl

private theorem finRange_nine : List.finRange 9 = [0, 1, 2, 3, 4, 5, 6, 7, 8] := by decide

/-! ## A row or column padded by one entry on each side -/

/-- `f` padded with `fill`: position `i` of the padded axis holds entry `i - 1` of `f`, and `fill` at `0` and past `512`. -/
private def pad1 (fill : EReal) (f : Fin 512 → EReal) (i : Nat) : EReal :=
  if h : 1 ≤ i ∧ i - 1 < 512 then f ⟨i - 1, h.2⟩ else fill

/-- An entry is the padded axis one further. -/
private theorem self_eq_pad1 (fill : EReal) (f : Fin 512 → EReal) (i : Fin 512) : f i = pad1 fill f (i.val + 1) := by
  unfold pad1
  rw [dif_pos ⟨by omega, by omega⟩]
  congr 1

/-- The next entry, or `fill` past the end, is the padded axis two further. -/
private theorem nextOr_eq_pad1 (fill : EReal) (f : Fin 512 → EReal) (i : Fin 512) :
    nextOr fill f i = pad1 fill f (i.val + 2) := by
  unfold nextOr pad1
  by_cases h : i.val + 1 < 512
  · rw [dif_pos h, dif_pos ⟨by omega, by omega⟩]
    congr 1
  · rw [dif_neg h, dif_neg (by omega)]

/-- The previous entry, or `fill` before the start, is the padded axis at the same position. -/
private theorem prevOr_eq_pad1 (fill : EReal) (f : Fin 512 → EReal) (i : Fin 512) :
    prevOr fill f i = pad1 fill f (i.val + 0) := by
  unfold prevOr pad1
  by_cases h : 0 < i.val
  · rw [dif_pos h, dif_pos ⟨by omega, by omega⟩]
    congr 1
  · rw [dif_neg h, dif_neg (by omega)]

/-- Padding commutes with an operation that fixes the fill. -/
private theorem pad1_op (op : EReal → EReal → EReal) (fill : EReal) (hff : op fill fill = fill)
    (f g : Fin 512 → EReal) (i : Nat) :
    pad1 fill (fun k => op (f k) (g k)) i = op (pad1 fill f i) (pad1 fill g i) := by
  unfold pad1
  by_cases h : 1 ≤ i ∧ i - 1 < 512
  · rw [dif_pos h, dif_pos h, dif_pos h]
  · rw [dif_neg h, dif_neg h, dif_neg h, hff]

/-- Batch `b`'s image padded by one pixel all round: pixel `(i - 1, j - 1)` inside, `v` on the border. -/
private def padAt (x : ST.Idx → EReal) (v : EReal) (b : Fin 16) (i j : Nat) : EReal :=
  pad1 v (fun q' => pad1 v (fun r' => x (ix3 b r' q')) i) j

private theorem padAt_def (x : ST.Idx → EReal) (v : EReal) (b : Fin 16) (i j : Nat) :
    padAt x v b i j = if hj : 1 ≤ j ∧ j - 1 < 512 then
      (if hi : 1 ≤ i ∧ i - 1 < 512 then x (ix3 b ⟨i - 1, hi.2⟩ ⟨j - 1, hj.2⟩) else v) else v := rfl

/-- One window position's contribution: the operand where the position is inside it, else `v`, is the padded image. -/
private theorem pad_term (x : ST.Idx → EReal) (v : EReal) (b : Fin 16) (p : Fin 3 → Nat) (i j : Nat)
    (h0 : p 0 = b.val) (h1 : p 1 = i) (h2 : p 2 = j) :
    (if hin : ∀ a : Fin 3, (![0, 1, 1] : Fin 3 → Nat) a ≤ p a ∧ p a - (![0, 1, 1] : Fin 3 → Nat) a < ST.size a then
        x (fun a => ⟨p a - (![0, 1, 1] : Fin 3 → Nat) a, (hin a).2⟩) else v) = padAt x v b i j := by
  rw [padAt_def]
  by_cases hj : 1 ≤ j ∧ j - 1 < 512
  · by_cases hi : 1 ≤ i ∧ i - 1 < 512
    · have hall : ∀ a : Fin 3, (![0, 1, 1] : Fin 3 → Nat) a ≤ p a ∧ p a - (![0, 1, 1] : Fin 3 → Nat) a < ST.size a := by
        intro a
        match a with
        | ⟨0, _⟩ => exact ⟨Nat.zero_le _, by show p 0 - 0 < 16; omega⟩
        | ⟨1, _⟩ => exact ⟨by show 1 ≤ p 1; omega, by show p 1 - 1 < 512; omega⟩
        | ⟨2, _⟩ => exact ⟨by show 1 ≤ p 2; omega, by show p 2 - 1 < 512; omega⟩
      rw [dif_pos hall, dif_pos hj, dif_pos hi]
      congr 1
      funext a
      match a with
      | ⟨0, _⟩ => exact Fin.ext (by show p 0 - 0 = b.val; omega)
      | ⟨1, _⟩ => exact Fin.ext (by show p 1 - 1 = i - 1; omega)
      | ⟨2, _⟩ => exact Fin.ext (by show p 2 - 1 = j - 1; omega)
    · rw [dif_pos hj, dif_neg hi, dif_neg]
      intro hin
      have := hin 1
      apply hi
      have h3 : 1 ≤ p 1 ∧ p 1 - 1 < 512 := this
      omega
  · rw [dif_neg hj, dif_neg]
    intro hin
    have := hin 2
    apply hj
    have h3 : 1 ≤ p 2 ∧ p 2 - 1 < 512 := this
    omega

/-! ## The separable window for any operation -/

/-- An entry, the one below and the one above, combined by `op`; `fill` outside the image. -/
private def row3 (op : EReal → EReal → EReal) (fill : EReal) (L : Fin 512 → Fin 512 → EReal) (r q : Fin 512) : EReal :=
  op (op (L r q) (nextOr fill (fun r' => L r' q) r)) (prevOr fill (fun r' => L r' q) r)

/-- `row3`, its right neighbour and its left one, combined by `op`. -/
private def win3 (op : EReal → EReal → EReal) (fill : EReal) (L : Fin 512 → Fin 512 → EReal) (r q : Fin 512) : EReal :=
  op (op (row3 op fill L r q) (nextOr fill (fun q' => row3 op fill L r q') q)) (prevOr fill (fun q' => row3 op fill L r q') q)

/-- `row3` through the padded column. -/
private theorem row3_eq (op : EReal → EReal → EReal) (fill : EReal) (L : Fin 512 → Fin 512 → EReal) (r q : Fin 512) :
    row3 op fill L r q = op (op (pad1 fill (fun r' => L r' q) (r.val + 1)) (pad1 fill (fun r' => L r' q) (r.val + 2)))
      (pad1 fill (fun r' => L r' q) (r.val + 0)) := by
  unfold row3
  rw [nextOr_eq_pad1, prevOr_eq_pad1]
  exact congrArg₂ op (congrArg₂ op (self_eq_pad1 fill (fun r' => L r' q) r) rfl) rfl

/-- `win3` through the padded row of `row3`. -/
private theorem win3_eq_pad (op : EReal → EReal → EReal) (fill : EReal) (L : Fin 512 → Fin 512 → EReal) (r q : Fin 512) :
    win3 op fill L r q = op (op (pad1 fill (fun q' => row3 op fill L r q') (q.val + 1))
        (pad1 fill (fun q' => row3 op fill L r q') (q.val + 2))) (pad1 fill (fun q' => row3 op fill L r q') (q.val + 0)) := by
  unfold win3
  rw [nextOr_eq_pad1, prevOr_eq_pad1]
  exact congrArg₂ op (congrArg₂ op (self_eq_pad1 fill (fun q' => row3 op fill L r q') q) rfl) rfl

/-- A padded row of `row3` is `op` over three entries of the padded image. -/
private theorem pad1_row3 (op : EReal → EReal → EReal) (fill : EReal) (hff : op fill fill = fill)
    (x : ST.Idx → EReal) (b : Fin 16) (r : Fin 512) (j : Nat) :
    pad1 fill (fun q' => row3 op fill (fun r' q' => x (ix3 b r' q')) r q') j
      = op (op (padAt x fill b (r.val + 1) j) (padAt x fill b (r.val + 2) j)) (padAt x fill b (r.val + 0) j) := by
  have hrow : (fun q' => row3 op fill (fun r' q' => x (ix3 b r' q')) r q')
      = fun q' => op (op (pad1 fill (fun r' => x (ix3 b r' q')) (r.val + 1))
          (pad1 fill (fun r' => x (ix3 b r' q')) (r.val + 2))) (pad1 fill (fun r' => x (ix3 b r' q')) (r.val + 0)) :=
    funext fun q' => row3_eq op fill (fun r' q' => x (ix3 b r' q')) r q'
  rw [hrow, pad1_op op fill hff, pad1_op op fill hff]
  rfl

/-- The separable window is `op` over the nine entries of the padded image around the pixel. -/
private theorem win3_eq (op : EReal → EReal → EReal) (fill : EReal) (hff : op fill fill = fill)
    (x : ST.Idx → EReal) (b : Fin 16) (r q : Fin 512) :
    win3 op fill (fun r' q' => x (ix3 b r' q')) r q
      = op (op (op (op (padAt x fill b (r.val + 1) (q.val + 1)) (padAt x fill b (r.val + 2) (q.val + 1)))
                  (padAt x fill b (r.val + 0) (q.val + 1)))
              (op (op (padAt x fill b (r.val + 1) (q.val + 2)) (padAt x fill b (r.val + 2) (q.val + 2)))
                  (padAt x fill b (r.val + 0) (q.val + 2))))
          (op (op (padAt x fill b (r.val + 1) (q.val + 0)) (padAt x fill b (r.val + 2) (q.val + 0)))
              (padAt x fill b (r.val + 0) (q.val + 0))) := by
  rw [win3_eq_pad, pad1_row3 op fill hff, pad1_row3 op fill hff, pad1_row3 op fill hff]

/-- The window reduction by an associative, commutative `op` from its identity `fill` is the separable window. -/
private theorem reduceWindow_apply_gen (op : EReal → EReal → EReal) (fill : EReal)
    (hassoc : ∀ a c d : EReal, op (op a c) d = op a (op c d)) (hcomm : ∀ a c : EReal, op a c = op c a)
    (hid : ∀ a : EReal, op fill a = a)
    (x : ST.Idx → EReal) (init : (⟨0, ![]⟩ : Shape).Idx → EReal) (hinit : init ix0 = fill)
    (h : ST.ReduceWindows (![1, 3, 3] : Fin 3 → Nat) ![1, 1, 1] ![0, 1, 1] ![0, 1, 1] ST)
    (hu : 0 < (⟨0, ![]⟩ : Shape).numel) (b : Fin 16) (r q : Fin 512) :
    Host.reduceWindow op (![1, 3, 3] : Fin 3 → Nat) ![1, 1, 1] ![0, 1, 1] ![0, 1, 1] x init h hu (ix3 b r q)
      = win3 op fill (fun r' q' => x (ix3 b r' q')) r q := by
  have hv : init (Shape.Idx.first hu) = fill := by
    rw [show Shape.Idx.first hu = ix0 from funext fun a => a.elim0, hinit]
  -- each position's contribution is an entry of the padded image
  have hterm : ∀ k : Fin 9,
      (if hin : ∀ a : Fin 3, (![0, 1, 1] : Fin 3 → Nat) a
            ≤ (ix3 b r q (a.cast h.1.symm)).val * (![1, 1, 1] : Fin 3 → Nat) a
              + (WS.rowMajor.symm (k.cast ws_numel.symm) a).val
          ∧ (ix3 b r q (a.cast h.1.symm)).val * (![1, 1, 1] : Fin 3 → Nat) a
              + (WS.rowMajor.symm (k.cast ws_numel.symm) a).val - (![0, 1, 1] : Fin 3 → Nat) a < ST.size a then
        x (fun a => ⟨(ix3 b r q (a.cast h.1.symm)).val * (![1, 1, 1] : Fin 3 → Nat) a
              + (WS.rowMajor.symm (k.cast ws_numel.symm) a).val - (![0, 1, 1] : Fin 3 → Nat) a, (hin a).2⟩)
        else fill) = padAt x fill b (r.val + k.val / 3) (q.val + k.val % 3) := by
    intro k
    refine pad_term x fill b (fun a => (ix3 b r q (a.cast h.1.symm)).val * (![1, 1, 1] : Fin 3 → Nat) a
              + (WS.rowMajor.symm (k.cast ws_numel.symm) a).val) _ _ ?_ ?_ ?_
    · show b.val * 1 + (WS.rowMajor.symm (k.cast ws_numel.symm) 0).val = b.val
      rw [ws_coord k 0]
      show b.val * 1 + 0 = b.val
      omega
    · show r.val * 1 + (WS.rowMajor.symm (k.cast ws_numel.symm) 1).val = r.val + k.val / 3
      rw [ws_coord k 1]
      show r.val * 1 + k.val / 3 = r.val + k.val / 3
      omega
    · show q.val * 1 + (WS.rowMajor.symm (k.cast ws_numel.symm) 2).val = q.val + k.val % 3
      rw [ws_coord k 2]
      show q.val * 1 + k.val % 3 = q.val + k.val % 3
      omega
  unfold Host.reduceWindow
  simp only []
  rw [foldl_finRange_cast ws_numel, hv]
  simp only [hterm]
  rw [finRange_nine]
  simp only [List.foldl_cons, List.foldl_nil]
  rw [win3_eq op fill (hid fill)]
  show (op (op (op (op (op (op (op (op (op fill (padAt x fill b (r.val + 0) (q.val + 0))) (padAt x fill b (r.val + 0) (q.val + 1))) (padAt x fill b (r.val + 0) (q.val + 2))) (padAt x fill b (r.val + 1) (q.val + 0))) (padAt x fill b (r.val + 1) (q.val + 1))) (padAt x fill b (r.val + 1) (q.val + 2))) (padAt x fill b (r.val + 2) (q.val + 0))) (padAt x fill b (r.val + 2) (q.val + 1))) (padAt x fill b (r.val + 2) (q.val + 2))) = _
  rw [hid]
  haveI : Std.Associative op := ⟨hassoc⟩
  haveI : Std.Commutative op := ⟨hcomm⟩
  ac_rfl

/-- The 3 x 3 maximum window over batch `b`'s image, padding at the bottom element, is `dil`. -/
theorem reduceWindow_max_apply (x : ST.Idx → EReal) (init : (⟨0, ![]⟩ : Shape).Idx → EReal) (hinit : init ix0 = ⊥)
    (h : ST.ReduceWindows (![1, 3, 3] : Fin 3 → Nat) ![1, 1, 1] ![0, 1, 1] ![0, 1, 1] ST)
    (hu : 0 < (⟨0, ![]⟩ : Shape).numel) (b : Fin 16) (r q : Fin 512) :
    Host.reduceWindow (fun a c : EReal => max a c) (![1, 3, 3] : Fin 3 → Nat) ![1, 1, 1] ![0, 1, 1] ![0, 1, 1] x init h hu
        (ix3 b r q)
      = dil (fun r' q' => x (ix3 b r' q')) r q :=
  reduceWindow_apply_gen (fun a c : EReal => max a c) ⊥ max_assoc max_comm max_bot_left x init hinit h hu b r q

/-- The 3 x 3 minimum window over batch `b`'s image, padding at the top element, is `ero`. -/
theorem reduceWindow_min_apply (x : ST.Idx → EReal) (init : (⟨0, ![]⟩ : Shape).Idx → EReal) (hinit : init ix0 = ⊤)
    (h : ST.ReduceWindows (![1, 3, 3] : Fin 3 → Nat) ![1, 1, 1] ![0, 1, 1] ![0, 1, 1] ST)
    (hu : 0 < (⟨0, ![]⟩ : Shape).numel) (b : Fin 16) (r q : Fin 512) :
    Host.reduceWindow (fun a c : EReal => min a c) (![1, 3, 3] : Fin 3 → Nat) ![1, 1, 1] ![0, 1, 1] ![0, 1, 1] x init h hu
        (ix3 b r q)
      = ero (fun r' q' => x (ix3 b r' q')) r q :=
  reduceWindow_apply_gen (fun a c : EReal => min a c) ⊤ min_assoc min_comm min_top_left x init hinit h hu b r q

end Cert.EdgeLoss

end
-- ==== Proof.RefW.lean ====
/-
  The reference's weight at a pixel. It casts the labels to reals, takes the 3 x 3 window maximum and minimum with the
  lattice's bottom and top as padding, subtracts, compares with zero, reads the bit as 0 or 1, and forms `1 + bit * 1`.
  By the window lemmas the two reductions are the separable `dil` and `ero` of the pixel's image, so the stage read at
  pixel `(b, r, q)` is the weight `wgt`.
-/
import proofs.«402932_j11811160064796_3_alg».proof.Proof.RefRead
import proofs.«402932_j11811160064796_3_alg».proof.Proof.Spec
import proofs.«402932_j11811160064796_3_alg».proof.Proof.Window
import Idealize.ShloMosaic.Lib.Pipeline.Value
import Idealize.ShloMosaic.Lib.ValueIdx
import Idealize.ShloMosaic.PureOps.Ideal.Laws

noncomputable section

open scoped BigOperators

namespace Cert.ReferenceIdeal.RefValue

open Idealize.ShloMosaic Idealize.ShloMosaic.ValueIdx Idealize.SL.Sem Idealize.ShloMosaic.StableHlo
open Cert.ReferenceIdeal Cert.ReferenceIdeal.Gen Cert.ReferenceIdeal.Read Cert.EdgeLoss

/-- The word `0xFF800000` has its sign bit set, an all-ones exponent and a zero significand: the bottom of the
    extended reals, the identity of `max`. -/
private theorem negInfW_eq_bot : Ideal.ofBits .f32 0xFF800000#32 = (⊥ : EReal) := by
  simp [Ideal.ofBits, Ideal.ieee]

/-- The word `0x7F800000` is the same with the sign bit clear: the top, the identity of `min`. -/
private theorem posInfW_eq_top : Ideal.ofBits .f32 0x7F800000#32 = (⊤ : EReal) := by
  simp [Ideal.ofBits, Ideal.ieee]

/-- The reference's weight stage at pixel `(b, r, q)`. -/
theorem ref_wgt (x1 : (⟨S16x512x512, .i32⟩ : BufTy).Contents (Elt Ideal)) (b : Fin 16) (r q : Fin 512) :
    val_main_v17 (F := Ideal) x1 (ix3 b r q) = wgt x1 b r q := by
  -- the two window reductions start from the identities of `max` and of `min`
  have hbot : val_main_v1 (F := Ideal) ix0 = (⊥ : EReal) := by
    rw [val_main_v1_apply, val_main_cst_apply]
    exact negInfW_eq_bot
  have htop : val_main_v3 (F := Ideal) ix0 = (⊤ : EReal) := by
    rw [val_main_v3_apply, val_main_cst_0_apply]
    exact posInfW_eq_top
  -- so, read at the pixel, they are the clipped 3 x 3 maximum and minimum of batch `b`'s labels as reals: the cast
  -- stage at `(b, r', q')` is `lab x1 b r' q'` by definition
  have hmax : val_main_v2 (F := Ideal) x1 (ix3 b r q) = dil (lab x1 b) r q :=
    reduceWindow_max_apply (val_main_v0 (F := Ideal) x1) (val_main_v1 (F := Ideal)) hbot
      reduceWindows_S16x512x512_S16x512x512_w1s1p0_0_w3s1p1_1_w3s1p1_1 h_S_ b r q
  have hmin : val_main_v4 (F := Ideal) x1 (ix3 b r q) = ero (lab x1 b) r q :=
    reduceWindow_min_apply (val_main_v0 (F := Ideal) x1) (val_main_v3 (F := Ideal)) htop
      reduceWindows_S16x512x512_S16x512x512_w1s1p0_0_w3s1p1_1_w3s1p1_1 h_S_ b r q
  -- the remaining stages each read one element: `1 + bit (dil - ero > 0) * 1`, the three literals kept as their words
  rw [val_main_v17_apply, val_main_v16_apply, val_main_cst_3_apply, val_main_v15_apply, val_main_v14_apply,
    val_main_cst_2_apply, val_main_v8_apply, val_main_v7_apply, val_main_v6_apply, val_main_cst_1_apply,
    val_main_v5_apply, hmax, hmin]
  -- at the extended reals the sum, product, difference, comparison and bit-to-real cast are the operations `wgt` is
  -- written with
  rfl

end Cert.ReferenceIdeal.RefValue

end
-- ==== Proof.Pixel.lean ====
/-
  One pixel's cross-entropy, two ways. For finite scores `x`, any finite shift `M` and a label `k`,
  `-((x k - M) - log (0 + sum of exp (x c - M)))` is `log (sum of exp (x c)) - x k`: the shift cancels, since
  `exp (a - M) = exp a / exp M` and the sum of exponentials is positive. And the sum over the classes of the score where
  the class is the label, zero elsewhere, is the score at the label.
-/
import proofs.«402932_j11811160064796_3_alg».proof.Proof.Spec

noncomputable section

open scoped BigOperators

namespace Cert.EdgeLoss

open Idealize.ShloMosaic

/-- A finite sum of coerced reals is the coercion of the real sum. -/
private theorem coe_sum_real {ι : Type} (s : Finset ι) (f : ι → ℝ) :
    (∑ c ∈ s, ((f c : ℝ) : EReal)) = ((∑ c ∈ s, f c : ℝ) : EReal) := by
  classical
  induction s using Finset.induction_on with
  | empty => simp
  | insert a s ha ih => rw [Finset.sum_insert ha, Finset.sum_insert ha, ih, EReal.coe_add]

/-- On a real the exponential is the real exponential. -/
private theorem exp_coe (r : ℝ) : Ideal.exp ((r : ℝ) : EReal) = ((Real.exp r : ℝ) : EReal) := rfl

/-- On a positive real the logarithm is the real logarithm. -/
private theorem log_coe_of_pos {r : ℝ} (h : 0 < r) :
    Ideal.log ((r : ℝ) : EReal) = ((Real.log r : ℝ) : EReal) := by
  show (if r ≤ 0 then (⊥ : EReal) else ((Real.log r : ℝ) : EReal)) = _
  rw [if_neg (not_le.mpr h)]

/-- The shifted log-softmax at the label, negated, is the unshifted cross-entropy. -/
theorem ce_shift (x : Fin 19 → ℝ) (M : ℝ) (k : Fin 19) :
    -(((x k : EReal) - (M : EReal)) - Ideal.log (0 + ∑ c : Fin 19, Ideal.exp ((x c : EReal) - (M : EReal))))
      = Ideal.log (∑ c : Fin 19, Ideal.exp (x c : EReal)) - (x k : EReal) := by
  have hS : 0 < ∑ c : Fin 19, Real.exp (x c) :=
    Finset.sum_pos (fun c _ => Real.exp_pos _) Finset.univ_nonempty
  have hS' : 0 < ∑ c : Fin 19, Real.exp (x c - M) :=
    Finset.sum_pos (fun c _ => Real.exp_pos _) Finset.univ_nonempty
  -- both sums of exponentials are coercions of real sums
  have hL : (∑ c : Fin 19, Ideal.exp ((x c : EReal) - (M : EReal)))
      = ((∑ c : Fin 19, Real.exp (x c - M) : ℝ) : EReal) := by
    rw [← coe_sum_real]
    refine Finset.sum_congr rfl (fun c _ => ?_)
    rw [← EReal.coe_sub, exp_coe]
  have hR : (∑ c : Fin 19, Ideal.exp (x c : EReal))
      = ((∑ c : Fin 19, Real.exp (x c) : ℝ) : EReal) := by
    rw [← coe_sum_real]
    refine Finset.sum_congr rfl (fun c _ => ?_)
    rw [exp_coe]
  -- the shifted sum is the unshifted one divided by `exp M`
  have hdiv : ∑ c : Fin 19, Real.exp (x c - M) = (∑ c : Fin 19, Real.exp (x c)) / Real.exp M := by
    rw [Finset.sum_div]
    exact Finset.sum_congr rfl (fun c _ => Real.exp_sub _ _)
  -- push everything inside one coercion, then argue in the reals
  rw [hL, hR, zero_add, log_coe_of_pos hS, log_coe_of_pos hS', ← EReal.coe_sub, ← EReal.coe_sub,
    ← EReal.coe_neg, ← EReal.coe_sub]
  congr 1
  rw [hdiv, Real.log_div hS.ne' (Real.exp_pos M).ne', Real.log_exp]
  ring

/-- Selecting the label's score by a sum of nineteen guarded terms. -/
theorem picked_eq (y : Fin 19 → EReal) (w : BitVec 32) (k : Fin 19) (hw : w = BitVec.ofNat 32 k.val) :
    (∑ c : Fin 19, (if w = BitVec.ofNat 32 c.val then y c else 0)) = y k := by
  subst hw
  rw [Finset.sum_eq_single k]
  · rw [if_pos rfl]
  · intro c _ hck
    rw [if_neg]
    intro h
    apply hck
    have h' := congrArg BitVec.toNat h
    rw [BitVec.toNat_ofNat, BitVec.toNat_ofNat, Nat.mod_eq_of_lt (by omega), Nat.mod_eq_of_lt (by omega)] at h'
    exact Fin.ext h'.symm
  · intro hk
    exact absurd (Finset.mem_univ k) hk

/-- So with real scores and an in-range label word the pixel's cross-entropy is the reference's form. -/
theorem cePix_eq (x : Fin 19 → ℝ) (M : ℝ) (w : BitVec 32) (k : Fin 19) (hw : w = BitVec.ofNat 32 k.val) :
    cePix (fun c => (x c : EReal)) w
      = -(((x k : EReal) - (M : EReal)) - Ideal.log (0 + ∑ c : Fin 19, Ideal.exp ((x c : EReal) - (M : EReal)))) := by
  rw [ce_shift x M k]
  unfold cePix
  rw [picked_eq (fun c => (x c : EReal)) w k hw]

end Cert.EdgeLoss

end
-- ==== Proof.RefCE.lean ====
/-
  The reference's cross-entropy at a pixel. It shifts the nineteen scores by their maximum, takes `log` of the sum of
  their exponentials, subtracts, gathers the shifted log-probability at the pixel's label (a negative label wraps by 19,
  a label outside `[0, 19)` after that selects a fill value), and negates. For real scores the maximum is a real, and for
  a label in range there is no wrap and no fill, so the stage read at pixel `(b, r, q)` is `log (sum of exp) - score at
  the label`, the cross-entropy `ce`.
-/
import proofs.«402932_j11811160064796_3_alg».proof.Proof.RefRead
import proofs.«402932_j11811160064796_3_alg».proof.Proof.Spec
import proofs.«402932_j11811160064796_3_alg».proof.Proof.Pixel
import Idealize.ShloMosaic.Lib.Pipeline.Value
import Idealize.ShloMosaic.Lib.ValueIdx
import Idealize.ShloMosaic.PureOps.Ideal.Laws

noncomputable section

open scoped BigOperators

namespace Cert.ReferenceIdeal.RefValue

open Idealize.ShloMosaic Idealize.ShloMosaic.ValueIdx Idealize.SL.Sem Idealize.ShloMosaic.StableHlo
open Cert.ReferenceIdeal Cert.ReferenceIdeal.Gen Cert.ReferenceIdeal.Read Cert.EdgeLoss

/-- The class maximum the scores are shifted by, at pixel `(b, r, q)`. -/
private abbrev shiftAt (x0 : (⟨S16x19x512x512, .f32⟩ : BufTy).Contents (Elt Ideal)) (b : Fin 16) (r q : Fin 512) : EReal :=
  val_main_call0_v2 (F := Ideal) x0 (ix3 b r q)

/-- The shifted score of class `c` at pixel `(b, r, q)`. -/
private theorem shifted_apply (x0 : (⟨S16x19x512x512, .f32⟩ : BufTy).Contents (Elt Ideal)) (b : Fin 16) (c : Fin 19) (r q : Fin 512) :
    val_main_call0_v5 (F := Ideal) x0 (ix4 b c r q) = x0 (ix4 b c r q) - shiftAt x0 b r q := by
  rw [val_main_call0_v5_apply, val_main_call0_v4_apply, val_main_call0_v3_apply]
  have hi : idx_main_call0_v3 (idx_main_call0_v4 (ix4 b c r q)) = ix3 b r q :=
    funext fun a => Fin.ext (by match a with | ⟨0, _⟩ => rfl | ⟨1, _⟩ => rfl | ⟨2, _⟩ => rfl)
  rw [hi]
  rfl

/-- The log-softmax of class `c` at pixel `(b, r, q)`: the shifted score less the logarithm of the sum of the
    exponentials of the nineteen shifted scores. -/
private theorem logsoftmax_apply (x0 : (⟨S16x19x512x512, .f32⟩ : BufTy).Contents (Elt Ideal)) (b : Fin 16) (c : Fin 19) (r q : Fin 512) :
    val_main_v9 (F := Ideal) x0 (ix4 b c r q)
      = (x0 (ix4 b c r q) - shiftAt x0 b r q)
          - Ideal.log (0 + ∑ k : Fin 19, Ideal.exp (x0 (ix4 b k r q) - shiftAt x0 b r q)) := by
  rw [val_main_v9_apply, shifted_apply, val_main_call0_v10_apply, val_main_call0_v9_apply, val_main_call0_v8_apply]
  have hi : idx_main_call0_v8 (idx_main_call0_v10 (ix4 b c r q)) = ix3 b r q :=
    funext fun a => Fin.ext (by match a with | ⟨0, _⟩ => rfl | ⟨1, _⟩ => rfl | ⟨2, _⟩ => rfl)
  rw [hi, val_main_call0_v7_apply, val_main_call0_cst_1_apply]
  have hs : ∀ k : Fin 19, val_main_call0_v6 (F := Ideal) x0 (idx_main_call0_v7 (ix3 b r q) k)
      = Ideal.exp (x0 (ix4 b k r q) - shiftAt x0 b r q) := by
    intro k
    have hk : idx_main_call0_v7 (ix3 b r q) k = ix4 b k r q :=
      funext fun a => Fin.ext (by match a with | ⟨0, _⟩ => rfl | ⟨1, _⟩ => rfl | ⟨2, _⟩ => rfl | ⟨3, _⟩ => rfl)
    rw [hk, val_main_call0_v6_apply, shifted_apply]
    rfl
  rw [Finset.sum_congr rfl (fun k _ => hs k)]
  show (x0 (ix4 b c r q) - shiftAt x0 b r q) - Ideal.log (Ideal.ofBits .f32 0x00000000#32 + _) = _
  rw [Ideal.ofBits_zero_f32]

/-- The maximum over a finite nonempty family of reals, taken from the bottom element, is a real. -/
private theorem fold_max_real {ι : Type} [Fintype ι] (k0 : ι) (f : ι → EReal) (hf : ∀ k, ∃ v : ℝ, f k = ((v : ℝ) : EReal)) :
    ∃ M : ℝ, (Finset.univ : Finset ι).fold max ⊥ f = ((M : ℝ) : EReal) := by
  have hne_top : (Finset.univ : Finset ι).fold max ⊥ f ≠ ⊤ := by
    apply ne_of_lt
    rw [Finset.fold_max_lt]
    refine ⟨bot_lt_top, fun k _ => ?_⟩
    obtain ⟨v, hv⟩ := hf k
    rw [hv]; exact EReal.coe_lt_top v
  have hne_bot : (Finset.univ : Finset ι).fold max ⊥ f ≠ ⊥ := by
    apply ne_of_gt
    obtain ⟨v, hv⟩ := hf k0
    have hle : f k0 ≤ (Finset.univ : Finset ι).fold max ⊥ f :=
      (Finset.le_fold_max (f k0)).2 (Or.inr ⟨k0, Finset.mem_univ _, le_rfl⟩)
    exact lt_of_lt_of_le (by rw [hv]; exact EReal.bot_lt_coe v) hle
  exact ⟨_, (EReal.coe_toReal hne_top hne_bot).symm⟩

/-- The pattern of negative infinity is the bottom element. -/
private theorem ofBits_neg_inf : Ideal.ofBits .f32 0xFF800000#32 = ⊥ := by simp [Ideal.ofBits, Ideal.ieee]

/-- For real scores the class maximum at a pixel is a real. -/
private theorem shift_real (x0 : (⟨S16x19x512x512, .f32⟩ : BufTy).Contents (Elt Ideal)) (hfin : ∀ i : S16x19x512x512.Idx, ∃ v : ℝ, x0 i = ((v : ℝ) : EReal))
    (b : Fin 16) (r q : Fin 512) : ∃ M : ℝ, shiftAt x0 b r q = ((M : ℝ) : EReal) := by
  have hred : S16x19x512x512.Reduces [1] S16x512x512 := by decide
  have e : shiftAt x0 b r q
      = max (Ideal.ofBits .f32 0xFF800000#32)
          ((Finset.univ : Finset (Fin (S16x19x512x512.size 1))).fold max (Ideal.ofBits .f32 0xFF800000#32)
            (x0 ∘ hred.lift (ix3 b r q))) := by
    unfold shiftAt
    rw [val_main_call0_v2_apply, val_main_call0_v1_apply]
    unfold val_main_call0_v0
    rw [Host.reduce_eq_fold_single (α := EReal) (FloatOps.maximumf (F := Ideal) (φ := .f32)) x0 _
      reducesTo_S16x19x512x512_S16x512x512_d1 hred h_S_]
    rfl
  obtain ⟨M, hM⟩ := fold_max_real (⟨0, by decide⟩ : Fin (S16x19x512x512.size 1)) (x0 ∘ hred.lift (ix3 b r q))
    (fun k => hfin _)
  refine ⟨M, ?_⟩
  rw [e, ofBits_neg_inf, hM]
  exact max_eq_right bot_le

/-- A left fold by `and` from 1 over words that are all 1 is 1. -/
private theorem foldl_andi_one {ι : Type} (f : ι → BitVec 1) :
    ∀ l : List ι, (∀ n ∈ l, f n = 1#1) → l.foldl (fun r n => IntOp.andi r (f n)) 1#1 = 1#1
  | [], _ => rfl
  | a :: l, h => by
    have e : IntOp.andi 1#1 (f a) = 1#1 := by rw [h a (List.mem_cons_self ..)]; decide
    rw [List.foldl_cons, e]
    exact foldl_andi_one f l (fun n hn => h n (List.mem_cons_of_mem _ hn))

/-- A label word below 19 is not negative, is at least 0 and at most 18, and reads signed as itself. -/
private theorem word_facts (w : BitVec 32) (hw : w.toNat < 19) :
    IntOp.cmpi .slt w 0#32 = 0#1 ∧ IntOp.cmpi .sge w 0#32 = 1#1 ∧ IntOp.cmpi .sle w 18#32 = 1#1
      ∧ w.toInt.toNat = w.toNat := by
  have hint : w.toInt = (w.toNat : Int) := BitVec.toInt_eq_toNat_of_lt (by omega)
  have h0 : (0#32 : BitVec 32).toInt = 0 := by decide
  have h18 : (18#32 : BitVec 32).toInt = 18 := by decide
  refine ⟨eq_zero_of_ne_one (fun e => ?_), IntOp.cmpi_sge.2 ?_, IntOp.cmpi_sle.2 ?_, ?_⟩
  · have := IntOp.cmpi_slt.1 e; rw [hint, h0] at this; omega
  · rw [hint, h0]; omega
  · rw [hint, h18]; omega
  · rw [hint]; rfl

/-- The index vector of the gather holds the label itself: a label below 19 is not wrapped. -/
private theorem label_at (x1 : (⟨S16x512x512, .i32⟩ : BufTy).Contents (Elt Ideal)) (hrange : ∀ i : S16x512x512.Idx, (x1 i).toNat < 19) (i : S16x1x512x512x1.Idx) :
    val_main_call1_v5 (F := Ideal) x1 i = x1 (idx_main_v10 (idx_main_call1_v5 i)) := by
  rw [val_main_call1_v5_apply, val_main_call1_v4_apply, val_main_call1_v1_apply, val_main_v10_apply,
    val_main_call1_v0_apply, val_main_call1_c_apply,
    (word_facts _ (hrange (idx_main_v10 (idx_main_call1_v5 i)))).1, select_zero]

/-- So every in-bounds test is passed. -/
private theorem inbounds_one (x1 : (⟨S16x512x512, .i32⟩ : BufTy).Contents (Elt Ideal)) (hrange : ∀ i : S16x512x512.Idx, (x1 i).toNat < 19) (i : S16x1x512x512x1.Idx) :
    val_main_call1_v11 (F := Ideal) x1 i = 1#1 := by
  obtain ⟨_, h1, h2, _⟩ := word_facts _ (hrange (idx_main_v10 (idx_main_call1_v5 i)))
  rw [val_main_call1_v11_apply, val_main_call1_v7_apply, val_main_call1_v10_apply, label_at x1 hrange i,
    val_main_call1_v6_apply, val_main_call1_c_2_apply, val_main_call1_v9_apply, val_main_call1_v8_apply,
    val_main_call1_c_1_apply, h1, h2]
  decide

/-- And their conjunction over the last axis is 1 at every index. -/
private theorem bounds_bit (x1 : (⟨S16x512x512, .i32⟩ : BufTy).Contents (Elt Ideal)) (hrange : ∀ i : S16x512x512.Idx, (x1 i).toNat < 19) (j : S16x1x512x512.Idx) :
    val_main_call1_v12 (F := Ideal) x1 j = 1#1 := by
  unfold val_main_call1_v12
  rw [Host.reduce_eq_foldl]
  exact foldl_andi_one _ _ (fun i _ => inbounds_one x1 hrange i)

/-- The pixel `(b, 0, r, q)` of the index tensor, through its two reshapes, is pixel `(b, r, q)` of the labels. -/
private theorem label_idx (b : Fin 16) (r q : Fin 512) :
    idx_main_v10 (idx_main_call1_v5 (ix5 b (0 : Fin 1) r q (0 : Fin 1))) = ix3 b r q := by
  have hr := r.isLt
  have hq := q.isLt
  refine funext fun a => Fin.ext ?_
  match a with
  | ⟨0, _⟩ =>
    show ((((b.val * 1 + 0) * 512 + r.val) * 512 + q.val) * 1 + 0) / 262144 = b.val
    omega
  | ⟨1, _⟩ =>
    show ((((b.val * 1 + 0) * 512 + r.val) * 512 + q.val) * 1 + 0) / 512 % 512 = r.val
    omega
  | ⟨2, _⟩ =>
    show ((((b.val * 1 + 0) * 512 + r.val) * 512 + q.val) * 1 + 0) % 512 = q.val
    omega

/-- The gather at `(b, 0, r, q)`: the log-softmax of the class the pixel's label names. -/
private theorem gather_apply (x0 : (⟨S16x19x512x512, .f32⟩ : BufTy).Contents (Elt Ideal)) (x1 : (⟨S16x512x512, .i32⟩ : BufTy).Contents (Elt Ideal)) (hrange : ∀ i : S16x512x512.Idx, (x1 i).toNat < 19)
    (b : Fin 16) (r q : Fin 512) :
    val_main_call1_v13 (F := Ideal) x0 x1 (ix4 b (0 : Fin 1) r q)
      = val_main_v9 (F := Ideal) x0 (ix4 b ⟨(x1 (ix3 b r q)).toNat, hrange _⟩ r q) := by
  unfold val_main_call1_v13 Host.gather
  refine congrArg (val_main_v9 (F := Ideal) x0) (funext fun a => Fin.ext ?_)
  match a with
  | ⟨0, _⟩ =>
    show (gather_S16x19x512x512_S16x1x512x512x1_S16x1x512x512_n_1_023_023_1_4_1111).start (ix4 b (0 : Fin 1) r q) (val_main_call1_v5 (F := Ideal) x1) 0
        + (gather_S16x19x512x512_S16x1x512x512x1_S16x1x512x512_n_1_023_023_1_4_1111).batchCoord (ix4 b (0 : Fin 1) r q) 0 + (gather_S16x19x512x512_S16x1x512x512x1_S16x1x512x512_n_1_023_023_1_4_1111).offCoord (ix4 b (0 : Fin 1) r q) 0 = b.val
    rw [GatherDims.start_batching _ _ _ _ (by decide),
      GatherDims.offCoord_eq_zero _ _ _ (fun h => ((GatherDims.mem_sKept _ _).mp h).2 (by decide)), Nat.zero_add, Nat.add_zero]
    rfl
  | ⟨1, _⟩ =>
    show (gather_S16x19x512x512_S16x1x512x512x1_S16x1x512x512_n_1_023_023_1_4_1111).start (ix4 b (0 : Fin 1) r q) (val_main_call1_v5 (F := Ideal) x1) 1
        + (gather_S16x19x512x512_S16x1x512x512x1_S16x1x512x512_n_1_023_023_1_4_1111).batchCoord (ix4 b (0 : Fin 1) r q) 1 + (gather_S16x19x512x512_S16x1x512x512x1_S16x1x512x512_n_1_023_023_1_4_1111).offCoord (ix4 b (0 : Fin 1) r q) 1
      = (x1 (ix3 b r q)).toNat
    rw [GatherDims.batchCoord_eq_zero _ _ _ (by decide),
      GatherDims.offCoord_eq_zero _ _ _ (fun h => ((GatherDims.mem_sKept _ _).mp h).1 (by decide)), Nat.add_zero]
    unfold GatherDims.start
    rw [dif_pos (show (1 : Fin 4) ∈ (gather_S16x19x512x512_S16x1x512x512x1_S16x1x512x512_n_1_023_023_1_4_1111).startIndexMap from by decide)]
    have hsi : (gather_S16x19x512x512_S16x1x512x512x1_S16x1x512x512_n_1_023_023_1_4_1111).siIdx (ix4 b (0 : Fin 1) r q) ⟨List.idxOf (1 : Fin 4) (gather_S16x19x512x512_S16x1x512x512x1_S16x1x512x512_n_1_023_023_1_4_1111).startIndexMap,
        List.idxOf_lt_length_iff.2 (show (1 : Fin 4) ∈ (gather_S16x19x512x512_S16x1x512x512x1_S16x1x512x512_n_1_023_023_1_4_1111).startIndexMap from by decide)⟩
          = ix5 b (0 : Fin 1) r q (0 : Fin 1) := by
      refine funext fun c => Fin.ext ?_
      match c with
      | ⟨0, _⟩ => rfl
      | ⟨1, _⟩ => rfl
      | ⟨2, _⟩ => rfl
      | ⟨3, _⟩ => rfl
      | ⟨4, _⟩ => rfl
    rw [hsi, label_at x1 hrange, label_idx, (word_facts _ (hrange (ix3 b r q))).2.2.2]
    have hlt := hrange (ix3 b r q)
    show min (x1 (ix3 b r q)).toNat 18 = (x1 (ix3 b r q)).toNat
    omega
  | ⟨2, _⟩ =>
    show (gather_S16x19x512x512_S16x1x512x512x1_S16x1x512x512_n_1_023_023_1_4_1111).start (ix4 b (0 : Fin 1) r q) (val_main_call1_v5 (F := Ideal) x1) 2
        + (gather_S16x19x512x512_S16x1x512x512x1_S16x1x512x512_n_1_023_023_1_4_1111).batchCoord (ix4 b (0 : Fin 1) r q) 2 + (gather_S16x19x512x512_S16x1x512x512x1_S16x1x512x512_n_1_023_023_1_4_1111).offCoord (ix4 b (0 : Fin 1) r q) 2 = r.val
    rw [GatherDims.start_batching _ _ _ _ (by decide),
      GatherDims.offCoord_eq_zero _ _ _ (fun h => ((GatherDims.mem_sKept _ _).mp h).2 (by decide)), Nat.zero_add, Nat.add_zero]
    rfl
  | ⟨3, _⟩ =>
    show (gather_S16x19x512x512_S16x1x512x512x1_S16x1x512x512_n_1_023_023_1_4_1111).start (ix4 b (0 : Fin 1) r q) (val_main_call1_v5 (F := Ideal) x1) 3
        + (gather_S16x19x512x512_S16x1x512x512x1_S16x1x512x512_n_1_023_023_1_4_1111).batchCoord (ix4 b (0 : Fin 1) r q) 3 + (gather_S16x19x512x512_S16x1x512x512x1_S16x1x512x512_n_1_023_023_1_4_1111).offCoord (ix4 b (0 : Fin 1) r q) 3 = q.val
    rw [GatherDims.start_batching _ _ _ _ (by decide),
      GatherDims.offCoord_eq_zero _ _ _ (fun h => ((GatherDims.mem_sKept _ _).mp h).2 (by decide)), Nat.zero_add, Nat.add_zero]
    rfl

/-- The reference's cross-entropy stage at pixel `(b, r, q)`, for real scores and labels below 19. -/
theorem ref_ce (x0 : (⟨S16x19x512x512, .f32⟩ : BufTy).Contents (Elt Ideal)) (x1 : (⟨S16x512x512, .i32⟩ : BufTy).Contents (Elt Ideal))
    (hfin : ∀ i : S16x19x512x512.Idx, ∃ v : ℝ, x0 i = ((v : ℝ) : EReal)) (hrange : ∀ i : S16x512x512.Idx, (x1 i).toNat < 19)
    (b : Fin 16) (r q : Fin 512) :
    val_main_v13 (F := Ideal) x0 x1 (ix3 b r q) = ce x0 x1 b r q := by
  -- the reshape reads pixel `(b, 0, r, q)`
  have hi : idx_main_v12 (ix3 b r q) = ix4 b (0 : Fin 1) r q := by
    have hr := r.isLt
    have hq := q.isLt
    refine funext fun a => Fin.ext ?_
    match a with
    | ⟨0, _⟩ =>
      show ((b.val * 512 + r.val) * 512 + q.val) / 262144 = b.val
      omega
    | ⟨1, _⟩ => rfl
    | ⟨2, _⟩ =>
      show ((b.val * 512 + r.val) * 512 + q.val) / 512 % 512 = r.val
      omega
    | ⟨3, _⟩ =>
      show ((b.val * 512 + r.val) * 512 + q.val) % 512 = q.val
      omega
  -- the stage is the negated log-softmax at the label's class
  have e : val_main_v13 (F := Ideal) x0 x1 (ix3 b r q)
      = -((x0 (ix4 b ⟨(x1 (ix3 b r q)).toNat, hrange _⟩ r q) - shiftAt x0 b r q)
          - Ideal.log (0 + ∑ k : Fin 19, Ideal.exp (x0 (ix4 b k r q) - shiftAt x0 b r q))) := by
    rw [val_main_v13_apply, val_main_v12_apply, hi, val_main_v11_apply, bounds_bit x1 hrange, select_one,
      gather_apply x0 x1 hrange, logsoftmax_apply]
    rfl
  -- the shift and the scores are reals, the label word is its class's
  obtain ⟨M, hM⟩ := shift_real x0 hfin b r q
  choose v hv using fun c => hfin (ix4 b c r q)
  have hw : x1 (ix3 b r q) = BitVec.ofNat 32 (⟨(x1 (ix3 b r q)).toNat, hrange _⟩ : Fin 19).val :=
    BitVec.eq_of_toNat_eq (by
      rw [BitVec.toNat_ofNat]
      exact (Nat.mod_eq_of_lt (by have := hrange (ix3 b r q); omega)).symm)
  have hce : ce x0 x1 b r q = cePix (fun c => ((v c : ℝ) : EReal)) (x1 (ix3 b r q)) := by
    unfold ce
    rw [show (fun c => x0 (ix4 b c r q)) = fun c => ((v c : ℝ) : EReal) from funext hv]
  rw [e, hce, cePix_eq v M (x1 (ix3 b r q)) ⟨(x1 (ix3 b r q)).toNat, hrange _⟩ hw, hM]
  simp only [hv]

end Cert.ReferenceIdeal.RefValue

end
-- ==== Proof.RefTotal.lean ====
/-
  The reference's result. It multiplies cross-entropy by weight pixel by pixel, sums over all `16 x 512 x 512` pixels from
  zero, and divides by the number of pixels. A sum over the indices of the three-axis shape is the iterated sum over its
  three coordinates, so the result is the mean `G`.
-/
import proofs.«402932_j11811160064796_3_alg».proof.Proof.RefRead
import proofs.«402932_j11811160064796_3_alg».proof.Proof.Spec
import proofs.«402932_j11811160064796_3_alg».proof.Proof.RefW
import proofs.«402932_j11811160064796_3_alg».proof.Proof.RefCE
import Idealize.ShloMosaic.Lib.Pipeline.Value
import Idealize.ShloMosaic.Lib.ValueIdx
import Idealize.ShloMosaic.PureOps.Ideal.Laws

noncomputable section

open scoped BigOperators

namespace Cert.ReferenceIdeal.RefValue

open Idealize.ShloMosaic Idealize.ShloMosaic.ValueIdx Idealize.SL.Sem Idealize.ShloMosaic.StableHlo
open Cert.ReferenceIdeal Cert.ReferenceIdeal.Gen Cert.ReferenceIdeal.Read Cert.EdgeLoss

/-- A rank-3 index set is the product of its three coordinate ranges … -/
private def idxEquiv3 {n0 n1 n2 : Nat} : (⟨3, ![n0, n1, n2]⟩ : Shape).Idx ≃ Fin n0 × Fin n1 × Fin n2 where
  toFun j := (j 0, j 1, j 2)
  invFun p := ix3 p.1 p.2.1 p.2.2
  left_inv j := (eq_ix3 j).symm
  right_inv _ := rfl

/-- … so a sum over it is the triple sum over the coordinates. -/
private theorem sum_idx3 {M : Type*} [AddCommMonoid M] {n0 n1 n2 : Nat} (f : (⟨3, ![n0, n1, n2]⟩ : Shape).Idx → M) :
    ∑ j, f j = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The reference's result is the mean of the weighted cross-entropy, for real scores and labels below 19. -/
theorem ref_eq (x0 : (⟨S16x19x512x512, .f32⟩ : BufTy).Contents (Elt Ideal)) (x1 : (⟨S16x512x512, .i32⟩ : BufTy).Contents (Elt Ideal))
    (hfin : ∀ i : S16x19x512x512.Idx, ∃ v : ℝ, x0 i = ((v : ℝ) : EReal)) (hrange : ∀ i : S16x512x512.Idx, (x1 i).toNat < 19) :
    val_main_v20 (F := Ideal) x0 x1 = G x0 x1 := by
  funext i
  rw [val_main_v20_apply, val_main_v19_apply, val_main_cst_4_apply, val_main_cst_5_apply, Ideal.hostDivf_def,
    Ideal.ofBits_def, Ideal.ofBits_def, Ideal.ofBits_zero_f32, zero_add]
  -- the sum over the three-axis index set, coordinate by coordinate
  have hsum : (∑ j : S16x512x512.Idx, val_main_v18 (F := Ideal) x0 x1 j) = total x0 x1 := by
    rw [show (∑ j : S16x512x512.Idx, val_main_v18 (F := Ideal) x0 x1 j)
        = ∑ b : Fin 16, ∑ r : Fin 512, ∑ q : Fin 512, val_main_v18 (F := Ideal) x0 x1 (ix3 b r q) from
      sum_idx3 (n0 := 16) (n1 := 512) (n2 := 512) (val_main_v18 (F := Ideal) x0 x1)]
    unfold total term
    refine Finset.sum_congr rfl fun b _ => Finset.sum_congr rfl fun r _ => Finset.sum_congr rfl fun q _ => ?_
    rw [val_main_v18_apply, Ideal.mulf_def, ref_ce x0 x1 hfin hrange b r q, ref_wgt x1 b r q]
  rw [hsum]
  rfl

end Cert.ReferenceIdeal.RefValue

end
-- ==== Proof.PreDecode.lean ====
/-
  What the precondition says, entry by entry. It is the conjunction of three `all`s: every score's absolute value is
  below `+inf`, every label is at least 0, every label is below 19. A reduction by `and` to one bit that is 1 had a 1 at
  every operand index; so every score is neither infinity, that is, a real number, and every label word, read signed,
  lies in `[0, 19)`, so that its unsigned reading is below 19 too.
-/
import proofs.«402932_j11811160064796_3_alg».proof.Pre_finite_inputs
import Idealize.ShloMosaic.Lib.ReduceAll
import Idealize.ShloMosaic.Lib.Affine
import Idealize.ShloMosaic.Lib.ValueIdx
import Idealize.ShloMosaic.Lib.StableHlo.Predicate
import Idealize.ShloMosaic.PureOps.Ideal.Laws

noncomputable section

namespace Cert.PreDecode

open Idealize.ShloMosaic Cert.Pre_finite_inputs

/-- The ordered "less than" comparison of extended reals yields the bit 1 exactly when it holds. -/
private theorem cmp_olt_eq_one {a b : EReal} : Ideal.cmp .olt a b = 1#1 ↔ a < b := by
  unfold Ideal.cmp
  by_cases hab : a < b <;> simp [hab]

private theorem top_word : Ideal.ofBits .f32 0x7F800000#32 = (⊤ : EReal) := by
  simp [Ideal.ofBits, Ideal.ieee]

/-- An extended real whose absolute value is below `+inf` is a real number. -/
private theorem real_of_abs_lt_top (x : EReal) (hx : max x (-x) < ⊤) : ∃ v : ℝ, x = ((v : ℝ) : EReal) := by
  induction x using EReal.rec with
  | bot => simp at hx
  | coe v => exact ⟨v, rfl⟩
  | top => simp at hx

/-- A 32-bit word that reads signed in `[0, 19)` reads unsigned below 19. -/
private theorem toNat_lt_of_toInt (w : BitVec 32) (h0 : (0#32 : BitVec 32).toInt ≤ w.toInt)
    (h19 : w.toInt < (19#32 : BitVec 32).toInt) : w.toNat < 19 := by
  have e0 : (0#32 : BitVec 32).toInt = 0 := by decide
  have e19 : (19#32 : BitVec 32).toInt = 19 := by decide
  rw [e0] at h0
  rw [e19] at h19
  rw [BitVec.toInt_eq_toNat_cond] at h0 h19
  have hlt := w.isLt
  split at h0 <;> omega

/-- Under the precondition every score is a real number and every label is below 19. -/
theorem decode [Cert.Pre_finite_inputs.Facts] (x0 : FVec Ideal S16x19x512x512 .f32) (x1 : IVec S16x512x512 32)
    (h : Cert.Pre_finite_inputs.fn (F := Ideal) x0 x1 = fun _ => 1#1) :
    (∀ i : S16x19x512x512.Idx, ∃ v : ℝ, x0 i = ((v : ℝ) : EReal)) ∧ (∀ i : S16x512x512.Idx, (x1 i).toNat < 19) := by
  haveI : Subsingleton S_.Idx := ⟨fun a b => funext fun d => d.elim0⟩
  have h0 := congrFun h ValueIdx.ix0
  dsimp only [Cert.Pre_finite_inputs.fn] at h0
  change IntOp.andi (IntOp.andi _ _) _ = 1#1 at h0
  obtain ⟨h12, h3⟩ := IntOp.andi_eq_one.1 h0
  obtain ⟨h1, h2⟩ := IntOp.andi_eq_one.1 h12
  refine ⟨fun i => ?_, fun i => ?_⟩
  · have a1 := Host.reduce_andi_all _ _ _ _ _ h1 i
    change Ideal.cmp .olt (max (x0 i) (-(x0 i))) (Ideal.ofBits .f32 0x7F800000#32) = 1#1 at a1
    rw [top_word] at a1
    exact real_of_abs_lt_top (x0 i) (cmp_olt_eq_one.1 a1)
  · have a2 := Host.reduce_andi_all _ _ _ _ _ h2 i
    have a3 := Host.reduce_andi_all _ _ _ _ _ h3 i
    change IntOp.cmpi .sge (x1 i) 0#32 = 1#1 at a2
    change IntOp.cmpi .slt (x1 i) 19#32 = 1#1 at a3
    exact toNat_lt_of_toInt (x1 i) (IntOp.cmpi_sge.1 a2) (IntOp.cmpi_slt.1 a3)

end Cert.PreDecode

end
-- ==== Proof.KPieces.lean ====
/-
  What each case of the body leaves behind, as pure terms of the blocks it was handed.

  At the first tile of an image the body stores the image's weight map into the first scratch, zeroes the accumulator and
  adds the tile's weighted cross-entropy to it; at the second tile it reads the weight map the first tile left, adds its
  own tile's sum to the accumulator it was handed, and copies the accumulator to the output. A tile's rows start at 256
  times the point's second coordinate. The loads are reads through rectangles: class `c`'s scores are the rectangle at
  offset `(0, c, 0, 0)` of extent `1 x 1 x 256 x 512` of the block of scores; the tile's labels and weights are 256 rows
  of the image's, from the tile's first row.
-/
import proofs.«402932_j11811160064796_3_alg».proof.Proof.Gen.KernelIdeal.Frame
import Idealize.ShloMosaic.Lib.Pipeline.Value

set_option maxRecDepth 16384

noncomputable section

namespace Cert.KernelIdeal.KBody

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

theorem zero2 : (![0, 0] : Fin 2 → Nat) = fun _ => 0 := by funext a; fin_cases a <;> rfl
theorem zero3 : (![0, 0, 0] : Fin 3 → Nat) = fun _ => 0 := by funext a; fin_cases a <;> rfl

/-- The weight map of a block of labels. -/
def wmap (x1 : Vec F S1x512x512 .i32) : Vec F S512x512 .f32 :=
  k0_pay9 (iota .tc S512x512 32 [1] iota_S512x512_d1_w32) (k0_pay6 x1) (k0_pay7 x1) (k0_pay8 x1)

/-- The first row of the tile at a grid point, as the body computes it. -/
def rowOff (i : grid0.Coords) : Nat :=
  BitVec.toNat (Scalar.indexCast (Scalar.muli (BitVec.ofNat 32 ↑(i 1)) 256#32))

/-- It is 256 times the point's second coordinate. -/
theorem rowOff_eq (i : grid0.Coords) : rowOff i = 256 * (i 1).val := by
  unfold rowOff
  have h : (i 1).val < 2 := (i 1).isLt
  generalize (i 1).val = v at h ⊢
  obtain rfl | rfl : v = 0 ∨ v = 1 := by omega
  all_goals rfl

theorem rowOff_le (i : grid0.Coords) : rowOff i + 256 ≤ 512 := by
  rw [rowOff_eq]; have h : (i 1).val < 2 := (i 1).isLt; omega

/-- The tile's labels: 256 rows of the image's, from the tile's first row. -/
def tileT (i : grid0.Coords) (x1 : Vec F S1x512x512 .i32) : Vec F S1x256x512 .i32 :=
  View.ld x1 (Rect.unit ![0, rowOff i, 0] ![1, 256, 512] (by
    intro a; have := rowOff_le i; fin_cases a <;> simp <;> omega))

/-- The tile's weights: the same rows of a weight map. -/
def tileW (i : grid0.Coords) (W : Vec F S512x512 .f32) : Vec F S256x512 .f32 :=
  View.ld W (Rect.unit ![rowOff i, 0] ![256, 512] (by
    intro a; have := rowOff_le i; fin_cases a <;> simp <;> omega))

/-- Class `c`'s scores in a block. -/
def chan (x0 : Vec F S1x19x256x512 .f32) (c : Fin 19) : Vec F S1x1x256x512 .f32 :=
  View.ld x0 (Rect.unit ![0, c.val, 0, 0] ![1, 1, 256, 512] (by
    intro a; have := c.isLt; fin_cases a <;> simp <;> omega))

/-- The accumulator after the tile at point `i`: the body's last store, over the tile's labels, the tile's rows of the
    weight map `W`, the nineteen classes' scores and what the accumulator held. -/
def accOf (i : grid0.Coords) (x0 : Vec F S1x19x256x512 .f32) (x1 : Vec F S1x512x512 .i32) (W : Vec F S512x512 .f32)
    (acc : Vec F S1x1 .f32) : Vec F S1x1 .f32 :=
  k0_pay1 (k0_pay11 (tileT i x1)) (tileW i W)
    (k0_pay42 (k0_pay35 (k0_pay28 (k0_pay21 (k0_pay14 (chan x0 0) (chan x0 1)) (k0_pay17 (chan x0 2)) (chan x0 3) (chan x0 4) (chan x0 5))
        (k0_pay24 (chan x0 6)) (chan x0 7) (chan x0 8) (chan x0 9)) (k0_pay31 (chan x0 10)) (chan x0 11) (chan x0 12) (chan x0 13)) (k0_pay38 (chan x0 14)) (chan x0 15) (chan x0 16) (chan x0 17))
    (k0_pay43 (k0_pay11 (tileT i x1)) (k0_pay36 (k0_pay11 (tileT i x1)) (k0_pay29 (k0_pay11 (tileT i x1)) (k0_pay22 (k0_pay11 (tileT i x1))
        (k0_pay15 (tileT i x1) (chan x0 0) (chan x0 1)) (k0_pay16 (chan x0 2)) (chan x0 3) (chan x0 4) (chan x0 5))
        (k0_pay23 (chan x0 6)) (chan x0 7) (chan x0 8) (chan x0 9)) (k0_pay30 (chan x0 10)) (chan x0 11) (chan x0 12) (chan x0 13)) (k0_pay37 (chan x0 14)) (chan x0 15) (chan x0 16) (chan x0 17))
    (k0_pay44 (chan x0 18)) (k0_pay45 (chan x0 18)) acc

/-- The first tile leaves the weight map of the image's labels in the first scratch. -/
theorem sA0 (c : Dev nD) (i : grid0.Coords) (arg2 : Memref sig .tc .vmem S1x19x256x512 .f32) (harg2 : arg2.IsWhole) (arg3 : Memref sig .tc .vmem S1x512x512 .i32) (harg3 : arg3.IsWhole) (arg4 : Memref sig .tc .vmem S1x1x1 .f32) (harg4 : arg4.IsWhole) (arg5 : Memref sig .tc .vmem S512x512 .f32) (harg5 : arg5.IsWhole) (arg6 : Memref sig .tc .vmem S1x1 .f32) (harg6 : arg6.IsWhole) (hc0 : cond0_0 i) (hc1 : ¬cond0_1 i) (x0 : Vec F S1x19x256x512 .f32) (x1 : Vec F S1x512x512 .i32) :
    sout0_A_0 c i arg2 harg2 arg3 harg3 arg4 harg4 arg5 harg5 arg6 harg6 hc0 hc1 x0 x1 = wmap x1 := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_unit_zero zero2]
  simp only [View.readAt_eq_ld, harg3.read_unread, View.ld_unit_zero (S := S1x512x512) zero3]
  rfl

/-- and the accumulator at the tile's sum over zero. -/
theorem sA1 (c : Dev nD) (i : grid0.Coords) (arg2 : Memref sig .tc .vmem S1x19x256x512 .f32) (harg2 : arg2.IsWhole) (arg3 : Memref sig .tc .vmem S1x512x512 .i32) (harg3 : arg3.IsWhole) (arg4 : Memref sig .tc .vmem S1x1x1 .f32) (harg4 : arg4.IsWhole) (arg5 : Memref sig .tc .vmem S512x512 .f32) (harg5 : arg5.IsWhole) (arg6 : Memref sig .tc .vmem S1x1 .f32) (harg6 : arg6.IsWhole) (hc0 : cond0_0 i) (hc1 : ¬cond0_1 i) (x0 : Vec F S1x19x256x512 .f32) (x1 : Vec F S1x512x512 .i32) :
    sout0_A_1 c i arg2 harg2 arg3 harg3 arg4 harg4 arg5 harg5 arg6 harg6 hc0 hc1 x0 x1 = accOf i x0 x1 (wmap x1) k0_pay10 := by
  unfold sout0_A_1
  rw [View.read_writes_eq_canon _ _ _ (scover0_A_1 c i arg2 harg2 arg3 harg3 arg4 harg4 arg5 harg5 arg6 harg6 hc0 hc1 x0 x1)]
  unfold kernelRun0_A
  dsimp only
  sl_unfold_words
  rw [View.canon_cons_unit_zero (S := S1x1) zero2, View.readCov_unit_zero (S := S1x1) _ zero2]
  simp only [View.readAt_eq_ld, harg3.read_unread, harg2.read_unread]
  rw [View.read_writes_eq_canon _ _ _ (fun y => ⟨_, List.mem_singleton_self _, View.mem_set_unit_zero zero2 inb_S512x512_S512x512_0_0 y⟩),
    View.canon_unit_zero zero2]
  simp only [View.ld_unit_zero (S := S1x512x512) zero3]
  rfl

/-- The second tile adds its sum to the accumulator it was handed, over the weight map it was handed. -/
theorem sB1 (c : Dev nD) (i : grid0.Coords) (arg2 : Memref sig .tc .vmem S1x19x256x512 .f32) (harg2 : arg2.IsWhole) (arg3 : Memref sig .tc .vmem S1x512x512 .i32) (harg3 : arg3.IsWhole) (arg4 : Memref sig .tc .vmem S1x1x1 .f32) (harg4 : arg4.IsWhole) (arg5 : Memref sig .tc .vmem S512x512 .f32) (harg5 : arg5.IsWhole) (arg6 : Memref sig .tc .vmem S1x1 .f32) (harg6 : arg6.IsWhole) (hc0 : ¬cond0_0 i) (hc1 : cond0_1 i) (x0 : Vec F S1x19x256x512 .f32) (x1 : Vec F S1x512x512 .i32) (xs0 : Vec F S512x512 .f32) (xs1 : Vec F S1x1 .f32) :
    sout0_B_1 c i arg2 harg2 arg3 harg3 arg4 harg4 arg5 harg5 arg6 harg6 hc0 hc1 x0 x1 xs0 xs1 = accOf i x0 x1 xs0 xs1 := by
  unfold sout0_B_1
  rw [View.read_writes_eq_canon _ _ _ (scover0_B_1 c i arg2 harg2 arg3 harg3 arg4 harg4 arg5 harg5 arg6 harg6 hc0 hc1 x0 x1 xs0 xs1)]
  unfold kernelRun0_B
  dsimp only
  sl_unfold_words
  rw [View.canon_unit_zero (S := S1x1) zero2]
  simp only [View.readAt_eq_ld, harg3.read_unread, harg2.read_unread, harg5.read_unread, harg6.read_unread,
    View.ld_unit_zero (S := S1x1) zero2]
  rfl

/-- and copies the accumulator to the output. -/
theorem oB2 (c : Dev nD) (i : grid0.Coords) (arg2 : Memref sig .tc .vmem S1x19x256x512 .f32) (harg2 : arg2.IsWhole) (arg3 : Memref sig .tc .vmem S1x512x512 .i32) (harg3 : arg3.IsWhole) (arg4 : Memref sig .tc .vmem S1x1x1 .f32) (harg4 : arg4.IsWhole) (arg5 : Memref sig .tc .vmem S512x512 .f32) (harg5 : arg5.IsWhole) (arg6 : Memref sig .tc .vmem S1x1 .f32) (harg6 : arg6.IsWhole) (hc0 : ¬cond0_0 i) (hc1 : cond0_1 i) (x0 : Vec F S1x19x256x512 .f32) (x1 : Vec F S1x512x512 .i32) (xs0 : Vec F S512x512 .f32) (xs1 : Vec F S1x1 .f32) :
    out0_B_2 c i arg2 harg2 arg3 harg3 arg4 harg4 arg5 harg5 arg6 harg6 hc0 hc1 x0 x1 xs0 xs1 = k0_pay2 (accOf i x0 x1 xs0 xs1) := by
  unfold out0_B_2
  rw [View.read_writes_eq_canon _ _ _ (cover0_B_2 c i arg2 harg2 arg3 harg3 arg4 harg4 arg5 harg5 arg6 harg6 hc0 hc1 x0 x1 xs0 xs1)]
  unfold kernelRun0_B
  dsimp only
  sl_unfold_words
  rw [View.canon_unit_zero (S := S1x1x1) zero3, View.readCov_unit_zero (S := S1x1) _ zero2]
  simp only [View.readAt_eq_ld, harg3.read_unread, harg2.read_unread, harg5.read_unread, harg6.read_unread,
    View.ld_unit_zero (S := S1x1) zero2]
  rfl

end Cert.KernelIdeal.KBody

end
-- ==== Proof.KBlocks.lean ====
/-
  Where a point's blocks lie in the arrays. The grid is 16 images by 2 tiles, point `t` being tile `t % 2` of image
  `t / 2`. The scores' window takes the `19 x 256 x 512` block of image `t / 2` whose rows start at `256 * (t % 2)`; the
  labels' window takes the whole image `t / 2`, the same at both tiles; the output's window is entry `t / 2` of the
  sixteen partial sums, written back at the second tile only.
-/
import proofs.«402932_j11811160064796_3_alg».proof.Proof.Gen.KernelIdeal.Frame
import Idealize.ShloMosaic.Lib.Pipeline.Value
import Idealize.ShloMosaic.Lib.ValueIdx

set_option maxRecDepth 16384

noncomputable section

namespace Cert.KernelIdeal.KBlocks

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ)

/-- The printed index maps and grid coordinates, decided once over the 32 points. -/
theorem idx_facts : ∀ t : Fin cfg0.N,
    win0_0.index t (0 : Fin 4) = t.val / 2 ∧ win0_0.index t (1 : Fin 4) = 0
    ∧ win0_0.index t (2 : Fin 4) = t.val % 2 ∧ win0_0.index t (3 : Fin 4) = 0
    ∧ win0_1.index t (0 : Fin 3) = t.val / 2 ∧ win0_1.index t (1 : Fin 3) = 0 ∧ win0_1.index t (2 : Fin 3) = 0
    ∧ win0_2.index t (0 : Fin 3) = t.val / 2 ∧ win0_2.index t (1 : Fin 3) = 0 ∧ win0_2.index t (2 : Fin 3) = 0
    ∧ (grid0.coords t (1 : Fin 2)).val = t.val % 2 ∧ (grid0.coords t (0 : Fin 2)).val = t.val / 2 :=
  (by decide +kernel : ∀ t : Fin grid0.N, _)

theorem N_eq : cfg0.N = 32 := N_0

theorem val_lt (t : Fin cfg0.N) : t.val < 32 := lt_of_lt_of_eq t.isLt N_eq

theorem lt_N {n : Nat} (h : n < 32) : n < cfg0.N := lt_of_lt_of_eq h N_eq.symm

/-- The image a point belongs to. -/
def img (t : Fin cfg0.N) : Fin 16 := ⟨t.val / 2, by have := val_lt t; omega⟩

/-- Row `r'` of a point's tile, as a row of the image. -/
def trow (t : Fin cfg0.N) (r' : Fin 256) : Fin 512 := ⟨256 * (t.val % 2) + r'.val, by omega⟩

/-- The scores' block at point `t`, read at class `cc`, tile row `r'`, column `q`. -/
theorem blkP (c : Dev nD) (t : Fin cfg0.N) (cc : Fin 19) (r' : Fin 256) (q : Fin 512) :
    iblk m c 0 t (ix4 (0 : Fin 1) cc r' q) = V m c main_arg0 (ix4 (img t) cc (trow t r') q) := by
  obtain ⟨e0, e1, e2, e3, -⟩ := idx_facts t
  show V m c main_arg0 (((cfg0.win 0).blk t).view.emb (ix4 (0 : Fin 1) cc r' q)) = _
  refine congrArg _ (funext fun a => Fin.ext ?_)
  match a with
  | ⟨0, _⟩ => show win0_0.index t (0 : Fin 4) * 1 + 1 * (0 : ℕ) = t.val / 2; omega
  | ⟨1, _⟩ => show win0_0.index t (1 : Fin 4) * 19 + 1 * cc.val = cc.val; omega
  | ⟨2, _⟩ => show win0_0.index t (2 : Fin 4) * 256 + 1 * r'.val = 256 * (t.val % 2) + r'.val; omega
  | ⟨3, _⟩ => show win0_0.index t (3 : Fin 4) * 512 + 1 * q.val = q.val; omega

/-- The labels' block at point `t`, read at row `r`, column `q`: the image's labels. -/
theorem blkT (c : Dev nD) (t : Fin cfg0.N) (r q : Fin 512) :
    iblk m c 1 t (ix3 (0 : Fin 1) r q) = V m c main_arg1 (ix3 (img t) r q) := by
  obtain ⟨-, -, -, -, e0, e1, e2, -⟩ := idx_facts t
  show V m c main_arg1 (((cfg0.win 1).blk t).view.emb (ix3 (0 : Fin 1) r q)) = _
  refine congrArg _ (funext fun a => Fin.ext ?_)
  match a with
  | ⟨0, _⟩ => show win0_1.index t (0 : Fin 3) * 1 + 1 * (0 : ℕ) = t.val / 2; omega
  | ⟨1, _⟩ => show win0_1.index t (1 : Fin 3) * 512 + 1 * r.val = r.val; omega
  | ⟨2, _⟩ => show win0_1.index t (2 : Fin 3) * 512 + 1 * q.val = q.val; omega

/-- The tile's first row, as the body computes it from the point's coordinates. -/
theorem coord1 (t : Fin cfg0.N) : (grid0.coords t (1 : Fin 2)).val = t.val % 2 := (idx_facts t).2.2.2.2.2.2.2.2.2.2.1

/-- An index of the sixteen partial sums is in point `t`'s block iff it is entry `t / 2`. -/
theorem mem_blk2 (t : Fin cfg0.N) (i : S16x1x1.Idx) :
    i ∈ ((cfg0.win 2).blk t).view.set ↔ ∀ a : Fin 3, win0_2.index t a * S1x1x1.size a ≤ (i a).val ∧ (i a).val < win0_2.index t a * S1x1x1.size a + S1x1x1.size a := by
  show i ∈ ((View.whole main_v0).slice (win0_2.rect t)).set ↔ _
  rw [View.set_slice_whole, Rect.mem_set_unit]
  exact Iff.rfl

/-- Every entry of the partial sums is written back by the second tile of its image. -/
theorem cover2 (i : S16x1x1.Idx) :
    ∃ t : Fin cfg0.N, (cfg0.win 2).flush t = true ∧ i ∈ ((cfg0.win 2).blk t).view.set := by
  have hi0 : (i 0).val < 16 := (i 0).isLt
  have hi1 : (i 1).val < 1 := (i 1).isLt
  have hi2 : (i 2).val < 1 := (i 2).isLt
  refine ⟨⟨2 * (i 0).val + 1, lt_N (by omega)⟩, (flush0_2 _).mpr (by show (2 * (i 0).val + 1) % 2 = 1; omega), ?_⟩
  rw [mem_blk2]
  obtain ⟨-, -, -, -, -, -, -, e0, e1, e2, -⟩ := idx_facts ⟨2 * (i 0).val + 1, lt_N (by omega)⟩
  have e0' : win0_2.index ⟨2 * (i 0).val + 1, lt_N (by omega)⟩ (0 : Fin 3) = (i 0).val := by rw [e0]; show (2 * (i 0).val + 1) / 2 = _; omega
  intro a
  match a with
  | ⟨0, _⟩ => show win0_2.index _ (0 : Fin 3) * 1 ≤ (i 0).val ∧ (i 0).val < win0_2.index _ (0 : Fin 3) * 1 + 1; omega
  | ⟨1, _⟩ => show win0_2.index _ (1 : Fin 3) * 1 ≤ (i 1).val ∧ (i 1).val < win0_2.index _ (1 : Fin 3) * 1 + 1; omega
  | ⟨2, _⟩ => show win0_2.index _ (2 : Fin 3) * 1 ≤ (i 2).val ∧ (i 2).val < win0_2.index _ (2 : Fin 3) * 1 + 1; omega

/-- The one entry of point `t`'s output block lies at entry `t / 2` of the partial sums. -/
theorem emb2 (t : Fin cfg0.N) :
    ((cfg0.win 2).blk t).view.emb (ix3 (0 : Fin 1) (0 : Fin 1) (0 : Fin 1)) = ix3 (img t) (0 : Fin 1) (0 : Fin 1) := by
  obtain ⟨-, -, -, -, -, -, -, e0, e1, e2, -⟩ := idx_facts t
  refine funext fun a => Fin.ext ?_
  match a with
  | ⟨0, _⟩ => show win0_2.index t (0 : Fin 3) * 1 + 1 * (0 : ℕ) = t.val / 2; omega
  | ⟨1, _⟩ => show win0_2.index t (1 : Fin 3) * 1 + 1 * (0 : ℕ) = 0; omega
  | ⟨2, _⟩ => show win0_2.index t (2 : Fin 3) * 1 + 1 * (0 : ℕ) = 0; omega

end Cert.KernelIdeal.KBlocks

end
-- ==== Proof.KPayA.lean ====
/-
  One tile's step of the accumulator. The body runs over the nineteen classes, adding `exp` of each class's scores into a
  running sum and the class's scores, where the class is the pixel's label, into a second one; then takes
  `log (sum of exp) - picked score`, multiplies by the pixel's weight, sums over the tile's `256 x 512` pixels and adds that
  to what the accumulator held. Read at the accumulator's one entry: the incoming value plus the sum over the tile of
  the pixel's cross-entropy times its weight.
-/
import proofs.«402932_j11811160064796_3_alg».proof.Proof.Gen.KernelIdeal.Skeleton
import proofs.«402932_j11811160064796_3_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option synthInstance.maxSize 4096

noncomputable section

open scoped BigOperators

namespace Cert.KernelIdeal.KPay

open Idealize.ShloMosaic Idealize.ShloMosaic.ValueIdx Idealize.SL.Sem
open Cert.KernelIdeal Cert.KernelIdeal.Gen Cert.EdgeLoss

/-- A sum over nineteen classes, written out from the left. -/
private theorem sum19 {M : Type} [AddCommMonoid M] (f : Fin 19 → M) :
    ∑ c : Fin 19, f c = ((((((((((((((((((f 0 + f 1) + f 2) + f 3) + f 4) + f 5) + f 6) + f 7) + f 8) + f 9) + f 10) + f 11) + f 12) + f 13) + f 14) + f 15) + f 16) + f 17) + f 18) := by
  simp only [Fin.sum_univ_castSucc, Fin.sum_univ_zero, zero_add]
  rfl

/-- A `[1, 1, 256, 512]` slice viewed `[256, 512]` reads, at `(r', q)`, the slice at `(0, 0, r', q)`. -/
private theorem cast4_apply {α : Type} (v : S1x1x256x512.Idx → α) (h : S1x1x256x512.ShapeCasts S256x512)
    (r' : Fin 256) (q : Fin 512) :
    shapeCast S256x512 v h (ix2 r' q) = v (ix4 (0 : Fin 1) (0 : Fin 1) r' q) :=
  shapeCast_apply v h _ _ (by
    rw [Shape.rowMajor_val_four, Shape.rowMajor_val_two]
    show ((0 * 1 + 0) * 256 + r'.val) * 512 + q.val = r'.val * 512 + q.val
    simp only [Nat.zero_mul, Nat.zero_add])

/-- A `[1, 256, 512]` tile viewed `[256, 512]` reads, at `(r', q)`, the tile at `(0, r', q)`. -/
private theorem cast3_apply {α : Type} (v : S1x256x512.Idx → α) (h : S1x256x512.ShapeCasts S256x512)
    (r' : Fin 256) (q : Fin 512) :
    shapeCast S256x512 v h (ix2 r' q) = v (ix3 (0 : Fin 1) r' q) :=
  shapeCast_1ab_ab_apply v h r' q

/-- The guarded score: the comparison's bit selects the score where the words are equal, the zero word elsewhere. -/
private theorem sel_apply (w c : BitVec 32) (y : EReal) :
    Scalar.select (IntOp.cmpi .eq w c) y (Ideal.ofBits .f32 0x00000000#32) = if w = c then y else 0 := by
  rw [Ideal.ofBits_zero_f32]
  by_cases h : w = c
  · have e : IntOp.cmpi .eq w c = 1#1 := by simp [IntOp.cmpi, h]
    rw [e, select_one, if_pos h]
  · have hb : (w == c) = false := beq_eq_false_iff_ne.mpr h
    have e : IntOp.cmpi .eq w c = 0#1 := by simp [IntOp.cmpi, hb]
    rw [e, select_zero, if_neg h]

private theorem pay16_apply (a : Vec Ideal S1x1x256x512 .f32) (r' : Fin 256) (q : Fin 512) :
    k0_pay16 (F := Ideal) a (ix2 r' q) = a (ix4 (0 : Fin 1) (0 : Fin 1) r' q) :=
  cast4_apply a shapeCasts_S1x1x256x512_S256x512 r' q

private theorem pay23_apply (a : Vec Ideal S1x1x256x512 .f32) (r' : Fin 256) (q : Fin 512) :
    k0_pay23 (F := Ideal) a (ix2 r' q) = a (ix4 (0 : Fin 1) (0 : Fin 1) r' q) :=
  cast4_apply a shapeCasts_S1x1x256x512_S256x512 r' q

private theorem pay30_apply (a : Vec Ideal S1x1x256x512 .f32) (r' : Fin 256) (q : Fin 512) :
    k0_pay30 (F := Ideal) a (ix2 r' q) = a (ix4 (0 : Fin 1) (0 : Fin 1) r' q) :=
  cast4_apply a shapeCasts_S1x1x256x512_S256x512 r' q

private theorem pay37_apply (a : Vec Ideal S1x1x256x512 .f32) (r' : Fin 256) (q : Fin 512) :
    k0_pay37 (F := Ideal) a (ix2 r' q) = a (ix4 (0 : Fin 1) (0 : Fin 1) r' q) :=
  cast4_apply a shapeCasts_S1x1x256x512_S256x512 r' q

private theorem pay44_apply (a : Vec Ideal S1x1x256x512 .f32) (r' : Fin 256) (q : Fin 512) :
    k0_pay44 (F := Ideal) a (ix2 r' q) = a (ix4 (0 : Fin 1) (0 : Fin 1) r' q) :=
  cast4_apply a shapeCasts_S1x1x256x512_S256x512 r' q

private theorem pay17_apply (a : Vec Ideal S1x1x256x512 .f32) (r' : Fin 256) (q : Fin 512) :
    k0_pay17 (F := Ideal) a (ix2 r' q) = Ideal.exp (a (ix4 (0 : Fin 1) (0 : Fin 1) r' q)) :=
  congrArg Ideal.exp (cast4_apply a shapeCasts_S1x1x256x512_S256x512 r' q)

private theorem pay24_apply (a : Vec Ideal S1x1x256x512 .f32) (r' : Fin 256) (q : Fin 512) :
    k0_pay24 (F := Ideal) a (ix2 r' q) = Ideal.exp (a (ix4 (0 : Fin 1) (0 : Fin 1) r' q)) :=
  congrArg Ideal.exp (cast4_apply a shapeCasts_S1x1x256x512_S256x512 r' q)

private theorem pay31_apply (a : Vec Ideal S1x1x256x512 .f32) (r' : Fin 256) (q : Fin 512) :
    k0_pay31 (F := Ideal) a (ix2 r' q) = Ideal.exp (a (ix4 (0 : Fin 1) (0 : Fin 1) r' q)) :=
  congrArg Ideal.exp (cast4_apply a shapeCasts_S1x1x256x512_S256x512 r' q)

private theorem pay38_apply (a : Vec Ideal S1x1x256x512 .f32) (r' : Fin 256) (q : Fin 512) :
    k0_pay38 (F := Ideal) a (ix2 r' q) = Ideal.exp (a (ix4 (0 : Fin 1) (0 : Fin 1) r' q)) :=
  congrArg Ideal.exp (cast4_apply a shapeCasts_S1x1x256x512_S256x512 r' q)

private theorem pay45_apply (a : Vec Ideal S1x1x256x512 .f32) (r' : Fin 256) (q : Fin 512) :
    k0_pay45 (F := Ideal) a (ix2 r' q) = Ideal.exp (a (ix4 (0 : Fin 1) (0 : Fin 1) r' q)) :=
  congrArg Ideal.exp (cast4_apply a shapeCasts_S1x1x256x512_S256x512 r' q)

private theorem pay11_apply (T : Vec Ideal S1x256x512 .i32) (r' : Fin 256) (q : Fin 512) :
    k0_pay11 (F := Ideal) T (ix2 r' q) = T (ix3 (0 : Fin 1) r' q) :=
  cast3_apply T shapeCasts_S1x256x512_S256x512 r' q

/-- The first two classes' exponentials, added onto zero. -/
private theorem pay14_apply (a b : Vec Ideal S1x1x256x512 .f32) (r' : Fin 256) (q : Fin 512) :
    k0_pay14 (F := Ideal) a b (ix2 r' q) = (0 + Ideal.exp (a (ix4 (0 : Fin 1) (0 : Fin 1) r' q))) + Ideal.exp (b (ix4 (0 : Fin 1) (0 : Fin 1) r' q)) := by
  have e : k0_pay14 (F := Ideal) a b (ix2 r' q)
      = ((Ideal.ofBits .f32 0x00000000#32) + Ideal.exp (shapeCast S256x512 a shapeCasts_S1x1x256x512_S256x512 (ix2 r' q))) + Ideal.exp (shapeCast S256x512 b shapeCasts_S1x1x256x512_S256x512 (ix2 r' q)) := rfl
  rw [e, cast4_apply, cast4_apply, Ideal.ofBits_zero_f32]

/-- The first two classes' guarded scores, added onto zero. -/
private theorem pay15_apply (T : Vec Ideal S1x256x512 .i32) (a b : Vec Ideal S1x1x256x512 .f32) (r' : Fin 256) (q : Fin 512) :
    k0_pay15 (F := Ideal) T a b (ix2 r' q)
      = (0 + (if T (ix3 (0 : Fin 1) r' q) = 0#32 then a (ix4 (0 : Fin 1) (0 : Fin 1) r' q) else 0))
          + (if T (ix3 (0 : Fin 1) r' q) = 1#32 then b (ix4 (0 : Fin 1) (0 : Fin 1) r' q) else 0) := by
  have e : k0_pay15 (F := Ideal) T a b (ix2 r' q)
      = ((Ideal.ofBits .f32 0x00000000#32) + Scalar.select (IntOp.cmpi .eq (k0_pay11 (F := Ideal) T (ix2 r' q)) 0#32) (shapeCast S256x512 a shapeCasts_S1x1x256x512_S256x512 (ix2 r' q)) (Ideal.ofBits .f32 0x00000000#32))
          + Scalar.select (IntOp.cmpi .eq (k0_pay11 (F := Ideal) T (ix2 r' q)) 1#32) (shapeCast S256x512 b shapeCasts_S1x1x256x512_S256x512 (ix2 r' q)) (Ideal.ofBits .f32 0x00000000#32) := rfl
  rw [e, sel_apply, sel_apply, pay11_apply, cast4_apply, cast4_apply, Ideal.ofBits_zero_f32]

/-- Four more classes' exponentials added on. -/
private theorem pay21_apply (s e : FVec Ideal S256x512 .f32) (a b c : Vec Ideal S1x1x256x512 .f32) (r' : Fin 256) (q : Fin 512) :
    k0_pay21 (F := Ideal) s e a b c (ix2 r' q)
      = (((s (ix2 r' q) + e (ix2 r' q)) + Ideal.exp (a (ix4 (0 : Fin 1) (0 : Fin 1) r' q))) + Ideal.exp (b (ix4 (0 : Fin 1) (0 : Fin 1) r' q))) + Ideal.exp (c (ix4 (0 : Fin 1) (0 : Fin 1) r' q)) := by
  have h : k0_pay21 (F := Ideal) s e a b c (ix2 r' q)
      = (((s (ix2 r' q) + e (ix2 r' q)) + Ideal.exp (shapeCast S256x512 a shapeCasts_S1x1x256x512_S256x512 (ix2 r' q))) + Ideal.exp (shapeCast S256x512 b shapeCasts_S1x1x256x512_S256x512 (ix2 r' q))) + Ideal.exp (shapeCast S256x512 c shapeCasts_S1x1x256x512_S256x512 (ix2 r' q)) := rfl
  rw [h, cast4_apply, cast4_apply, cast4_apply]

/-- Four more classes' exponentials added on. -/
private theorem pay28_apply (s e : FVec Ideal S256x512 .f32) (a b c : Vec Ideal S1x1x256x512 .f32) (r' : Fin 256) (q : Fin 512) :
    k0_pay28 (F := Ideal) s e a b c (ix2 r' q)
      = (((s (ix2 r' q) + e (ix2 r' q)) + Ideal.exp (a (ix4 (0 : Fin 1) (0 : Fin 1) r' q))) + Ideal.exp (b (ix4 (0 : Fin 1) (0 : Fin 1) r' q))) + Ideal.exp (c (ix4 (0 : Fin 1) (0 : Fin 1) r' q)) := by
  have h : k0_pay28 (F := Ideal) s e a b c (ix2 r' q)
      = (((s (ix2 r' q) + e (ix2 r' q)) + Ideal.exp (shapeCast S256x512 a shapeCasts_S1x1x256x512_S256x512 (ix2 r' q))) + Ideal.exp (shapeCast S256x512 b shapeCasts_S1x1x256x512_S256x512 (ix2 r' q))) + Ideal.exp (shapeCast S256x512 c shapeCasts_S1x1x256x512_S256x512 (ix2 r' q)) := rfl
  rw [h, cast4_apply, cast4_apply, cast4_apply]

/-- Four more classes' exponentials added on. -/
private theorem pay35_apply (s e : FVec Ideal S256x512 .f32) (a b c : Vec Ideal S1x1x256x512 .f32) (r' : Fin 256) (q : Fin 512) :
    k0_pay35 (F := Ideal) s e a b c (ix2 r' q)
      = (((s (ix2 r' q) + e (ix2 r' q)) + Ideal.exp (a (ix4 (0 : Fin 1) (0 : Fin 1) r' q))) + Ideal.exp (b (ix4 (0 : Fin 1) (0 : Fin 1) r' q))) + Ideal.exp (c (ix4 (0 : Fin 1) (0 : Fin 1) r' q)) := by
  have h : k0_pay35 (F := Ideal) s e a b c (ix2 r' q)
      = (((s (ix2 r' q) + e (ix2 r' q)) + Ideal.exp (shapeCast S256x512 a shapeCasts_S1x1x256x512_S256x512 (ix2 r' q))) + Ideal.exp (shapeCast S256x512 b shapeCasts_S1x1x256x512_S256x512 (ix2 r' q))) + Ideal.exp (shapeCast S256x512 c shapeCasts_S1x1x256x512_S256x512 (ix2 r' q)) := rfl
  rw [h, cast4_apply, cast4_apply, cast4_apply]

/-- Four more classes' exponentials added on. -/
private theorem pay42_apply (s e : FVec Ideal S256x512 .f32) (a b c : Vec Ideal S1x1x256x512 .f32) (r' : Fin 256) (q : Fin 512) :
    k0_pay42 (F := Ideal) s e a b c (ix2 r' q)
      = (((s (ix2 r' q) + e (ix2 r' q)) + Ideal.exp (a (ix4 (0 : Fin 1) (0 : Fin 1) r' q))) + Ideal.exp (b (ix4 (0 : Fin 1) (0 : Fin 1) r' q))) + Ideal.exp (c (ix4 (0 : Fin 1) (0 : Fin 1) r' q)) := by
  have h : k0_pay42 (F := Ideal) s e a b c (ix2 r' q)
      = (((s (ix2 r' q) + e (ix2 r' q)) + Ideal.exp (shapeCast S256x512 a shapeCasts_S1x1x256x512_S256x512 (ix2 r' q))) + Ideal.exp (shapeCast S256x512 b shapeCasts_S1x1x256x512_S256x512 (ix2 r' q))) + Ideal.exp (shapeCast S256x512 c shapeCasts_S1x1x256x512_S256x512 (ix2 r' q)) := rfl
  rw [h, cast4_apply, cast4_apply, cast4_apply]

/-- Four more classes' guarded scores added on. -/
private theorem pay22_apply (w : IVec S256x512 32) (p s : FVec Ideal S256x512 .f32) (a b c : Vec Ideal S1x1x256x512 .f32) (r' : Fin 256) (q : Fin 512) :
    k0_pay22 (F := Ideal) w p s a b c (ix2 r' q)
      = (((p (ix2 r' q) + (if w (ix2 r' q) = 2#32 then s (ix2 r' q) else 0)) + (if w (ix2 r' q) = 3#32 then a (ix4 (0 : Fin 1) (0 : Fin 1) r' q) else 0))
          + (if w (ix2 r' q) = 4#32 then b (ix4 (0 : Fin 1) (0 : Fin 1) r' q) else 0)) + (if w (ix2 r' q) = 5#32 then c (ix4 (0 : Fin 1) (0 : Fin 1) r' q) else 0) := by
  have h : k0_pay22 (F := Ideal) w p s a b c (ix2 r' q)
      = (((p (ix2 r' q) + Scalar.select (IntOp.cmpi .eq (w (ix2 r' q)) 2#32) (s (ix2 r' q)) (Ideal.ofBits .f32 0x00000000#32))
          + Scalar.select (IntOp.cmpi .eq (w (ix2 r' q)) 3#32) (shapeCast S256x512 a shapeCasts_S1x1x256x512_S256x512 (ix2 r' q)) (Ideal.ofBits .f32 0x00000000#32))
          + Scalar.select (IntOp.cmpi .eq (w (ix2 r' q)) 4#32) (shapeCast S256x512 b shapeCasts_S1x1x256x512_S256x512 (ix2 r' q)) (Ideal.ofBits .f32 0x00000000#32))
          + Scalar.select (IntOp.cmpi .eq (w (ix2 r' q)) 5#32) (shapeCast S256x512 c shapeCasts_S1x1x256x512_S256x512 (ix2 r' q)) (Ideal.ofBits .f32 0x00000000#32) := rfl
  rw [h, sel_apply, sel_apply, sel_apply, sel_apply, cast4_apply, cast4_apply, cast4_apply]

/-- Four more classes' guarded scores added on. -/
private theorem pay29_apply (w : IVec S256x512 32) (p s : FVec Ideal S256x512 .f32) (a b c : Vec Ideal S1x1x256x512 .f32) (r' : Fin 256) (q : Fin 512) :
    k0_pay29 (F := Ideal) w p s a b c (ix2 r' q)
      = (((p (ix2 r' q) + (if w (ix2 r' q) = 6#32 then s (ix2 r' q) else 0)) + (if w (ix2 r' q) = 7#32 then a (ix4 (0 : Fin 1) (0 : Fin 1) r' q) else 0))
          + (if w (ix2 r' q) = 8#32 then b (ix4 (0 : Fin 1) (0 : Fin 1) r' q) else 0)) + (if w (ix2 r' q) = 9#32 then c (ix4 (0 : Fin 1) (0 : Fin 1) r' q) else 0) := by
  have h : k0_pay29 (F := Ideal) w p s a b c (ix2 r' q)
      = (((p (ix2 r' q) + Scalar.select (IntOp.cmpi .eq (w (ix2 r' q)) 6#32) (s (ix2 r' q)) (Ideal.ofBits .f32 0x00000000#32))
          + Scalar.select (IntOp.cmpi .eq (w (ix2 r' q)) 7#32) (shapeCast S256x512 a shapeCasts_S1x1x256x512_S256x512 (ix2 r' q)) (Ideal.ofBits .f32 0x00000000#32))
          + Scalar.select (IntOp.cmpi .eq (w (ix2 r' q)) 8#32) (shapeCast S256x512 b shapeCasts_S1x1x256x512_S256x512 (ix2 r' q)) (Ideal.ofBits .f32 0x00000000#32))
          + Scalar.select (IntOp.cmpi .eq (w (ix2 r' q)) 9#32) (shapeCast S256x512 c shapeCasts_S1x1x256x512_S256x512 (ix2 r' q)) (Ideal.ofBits .f32 0x00000000#32) := rfl
  rw [h, sel_apply, sel_apply, sel_apply, sel_apply, cast4_apply, cast4_apply, cast4_apply]

/-- Four more classes' guarded scores added on. -/
private theorem pay36_apply (w : IVec S256x512 32) (p s : FVec Ideal S256x512 .f32) (a b c : Vec Ideal S1x1x256x512 .f32) (r' : Fin 256) (q : Fin 512) :
    k0_pay36 (F := Ideal) w p s a b c (ix2 r' q)
      = (((p (ix2 r' q) + (if w (ix2 r' q) = 10#32 then s (ix2 r' q) else 0)) + (if w (ix2 r' q) = 11#32 then a (ix4 (0 : Fin 1) (0 : Fin 1) r' q) else 0))
          + (if w (ix2 r' q) = 12#32 then b (ix4 (0 : Fin 1) (0 : Fin 1) r' q) else 0)) + (if w (ix2 r' q) = 13#32 then c (ix4 (0 : Fin 1) (0 : Fin 1) r' q) else 0) := by
  have h : k0_pay36 (F := Ideal) w p s a b c (ix2 r' q)
      = (((p (ix2 r' q) + Scalar.select (IntOp.cmpi .eq (w (ix2 r' q)) 10#32) (s (ix2 r' q)) (Ideal.ofBits .f32 0x00000000#32))
          + Scalar.select (IntOp.cmpi .eq (w (ix2 r' q)) 11#32) (shapeCast S256x512 a shapeCasts_S1x1x256x512_S256x512 (ix2 r' q)) (Ideal.ofBits .f32 0x00000000#32))
          + Scalar.select (IntOp.cmpi .eq (w (ix2 r' q)) 12#32) (shapeCast S256x512 b shapeCasts_S1x1x256x512_S256x512 (ix2 r' q)) (Ideal.ofBits .f32 0x00000000#32))
          + Scalar.select (IntOp.cmpi .eq (w (ix2 r' q)) 13#32) (shapeCast S256x512 c shapeCasts_S1x1x256x512_S256x512 (ix2 r' q)) (Ideal.ofBits .f32 0x00000000#32) := rfl
  rw [h, sel_apply, sel_apply, sel_apply, sel_apply, cast4_apply, cast4_apply, cast4_apply]

/-- Four more classes' guarded scores added on. -/
private theorem pay43_apply (w : IVec S256x512 32) (p s : FVec Ideal S256x512 .f32) (a b c : Vec Ideal S1x1x256x512 .f32) (r' : Fin 256) (q : Fin 512) :
    k0_pay43 (F := Ideal) w p s a b c (ix2 r' q)
      = (((p (ix2 r' q) + (if w (ix2 r' q) = 14#32 then s (ix2 r' q) else 0)) + (if w (ix2 r' q) = 15#32 then a (ix4 (0 : Fin 1) (0 : Fin 1) r' q) else 0))
          + (if w (ix2 r' q) = 16#32 then b (ix4 (0 : Fin 1) (0 : Fin 1) r' q) else 0)) + (if w (ix2 r' q) = 17#32 then c (ix4 (0 : Fin 1) (0 : Fin 1) r' q) else 0) := by
  have h : k0_pay43 (F := Ideal) w p s a b c (ix2 r' q)
      = (((p (ix2 r' q) + Scalar.select (IntOp.cmpi .eq (w (ix2 r' q)) 14#32) (s (ix2 r' q)) (Ideal.ofBits .f32 0x00000000#32))
          + Scalar.select (IntOp.cmpi .eq (w (ix2 r' q)) 15#32) (shapeCast S256x512 a shapeCasts_S1x1x256x512_S256x512 (ix2 r' q)) (Ideal.ofBits .f32 0x00000000#32))
          + Scalar.select (IntOp.cmpi .eq (w (ix2 r' q)) 16#32) (shapeCast S256x512 b shapeCasts_S1x1x256x512_S256x512 (ix2 r' q)) (Ideal.ofBits .f32 0x00000000#32))
          + Scalar.select (IntOp.cmpi .eq (w (ix2 r' q)) 17#32) (shapeCast S256x512 c shapeCasts_S1x1x256x512_S256x512 (ix2 r' q)) (Ideal.ofBits .f32 0x00000000#32) := rfl
  rw [h, sel_apply, sel_apply, sel_apply, sel_apply, cast4_apply, cast4_apply, cast4_apply]

/-- The last class added on, the logarithm less the picked score, times the weight, summed over the tile and added to
    the accumulator: read at the accumulator's one entry. -/
private theorem pay1_apply (w : IVec S256x512 32) (wt : Vec Ideal S256x512 .f32) (s p y e : FVec Ideal S256x512 .f32)
    (acc : Vec Ideal S1x1 .f32) :
    k0_pay1 (F := Ideal) w wt s p y e acc (ix2 (0 : Fin 1) (0 : Fin 1))
      = acc (ix2 (0 : Fin 1) (0 : Fin 1)) + ∑ r' : Fin 256, ∑ q : Fin 512,
          (Ideal.log (s (ix2 r' q) + e (ix2 r' q)) - (p (ix2 r' q) + (if w (ix2 r' q) = 18#32 then y (ix2 r' q) else 0))) * wt (ix2 r' q) := by
  -- the tile of weighted cross-entropies the body sums
  let V : FVec Ideal S256x512 .f32 := fun i =>
    (Ideal.log (s i + e i) - (p i + Scalar.select (IntOp.cmpi .eq (w i) 18#32) (y i) (Ideal.ofBits .f32 0x00000000#32))) * wt i
  -- the outer shape cast is to the same shape
  have e0 : k0_pay1 (F := Ideal) w wt s p y e acc
      = addf acc (broadcast S1x1 (extractAt ![0, 0, 0] (shapeCast S1x1x1 (multiReduction (F := Ideal) .add [1, 2] S1 (shapeCast S1x256x512 V shapeCasts_S256x512_S1x256x512)
            0x00000000#32 reduces_S1x256x512_S1 (.inl rfl) rfl) shapeCasts_S1_S1x1x1) inpos_S1x1x1_p0_0_0)) :=
    shapeCast_self _ _
  -- a reduction into a one-entry shape is the sum over the whole source
  have e1 : (extractAt ![0, 0, 0] (shapeCast S1x1x1 (multiReduction (F := Ideal) .add [1, 2] S1 (shapeCast S1x256x512 V shapeCasts_S256x512_S1x256x512)
            0x00000000#32 reduces_S1x256x512_S1 (.inl rfl) rfl) shapeCasts_S1_S1x1x1) inpos_S1x1x1_p0_0_0)
      = ∑ i : S1x256x512.Idx, shapeCast S1x256x512 V shapeCasts_S256x512_S1x256x512 i :=
    Ideal.multiReduction_add_total (φ := .f32) (shapeCast S1x256x512 V shapeCasts_S256x512_S1x256x512) 0x00000000#32
      reduces_S1x256x512_S1 (by decide) (.inl rfl) rfl _
  -- a shape cast only re-indexes the sum
  have e2 : ∑ i : S1x256x512.Idx, shapeCast S1x256x512 V shapeCasts_S256x512_S1x256x512 i = ∑ k : S256x512.Idx, V k :=
    Equiv.sum_comp (Shape.reshapeEquiv shapeCasts_S256x512_S1x256x512) V
  rw [e0, addf_apply, broadcast_apply, e1, e2, sum_idx2]
  congr 1
  refine Finset.sum_congr rfl (fun r' _ => Finset.sum_congr rfl (fun q _ => ?_))
  show (Ideal.log (s (ix2 r' q) + e (ix2 r' q)) - (p (ix2 r' q) + Scalar.select (IntOp.cmpi .eq (w (ix2 r' q)) 18#32) (y (ix2 r' q)) (Ideal.ofBits .f32 0x00000000#32))) * wt (ix2 r' q) = _
  rw [sel_apply]

/-- The accumulator after one tile: what it held, plus the tile's weighted cross-entropy. `l c` is class `c`'s slice of
    the tile's scores, `TT0` the tile's labels, `wt` its weights. -/
theorem accStep_apply (TT0 : Vec Ideal S1x256x512 .i32) (wt : Vec Ideal S256x512 .f32)
    (l : Fin 19 → Vec Ideal S1x1x256x512 .f32) (acc : Vec Ideal S1x1 .f32) :
    k0_pay1 (F := Ideal) (k0_pay11 TT0) wt
        (k0_pay42 (k0_pay35 (k0_pay28 (k0_pay21 (k0_pay14 (l 0) (l 1)) (k0_pay17 (l 2)) (l 3) (l 4) (l 5))
          (k0_pay24 (l 6)) (l 7) (l 8) (l 9)) (k0_pay31 (l 10)) (l 11) (l 12) (l 13)) (k0_pay38 (l 14)) (l 15) (l 16) (l 17))
        (k0_pay43 (k0_pay11 TT0) (k0_pay36 (k0_pay11 TT0) (k0_pay29 (k0_pay11 TT0) (k0_pay22 (k0_pay11 TT0)
          (k0_pay15 TT0 (l 0) (l 1)) (k0_pay16 (l 2)) (l 3) (l 4) (l 5))
          (k0_pay23 (l 6)) (l 7) (l 8) (l 9)) (k0_pay30 (l 10)) (l 11) (l 12) (l 13)) (k0_pay37 (l 14)) (l 15) (l 16) (l 17))
        (k0_pay44 (l 18)) (k0_pay45 (l 18)) acc (ix2 (0 : Fin 1) (0 : Fin 1))
      = acc (ix2 (0 : Fin 1) (0 : Fin 1)) + ∑ r' : Fin 256, ∑ q : Fin 512,
          cePix (fun c => l c (ix4 (0 : Fin 1) (0 : Fin 1) r' q)) (TT0 (ix3 (0 : Fin 1) r' q)) * wt (ix2 r' q) := by
  rw [pay1_apply]
  congr 1
  refine Finset.sum_congr rfl (fun r' _ => Finset.sum_congr rfl (fun q _ => ?_))
  congr 1
  unfold cePix
  congr 1
  · -- the nineteen exponentials, class by class
    rw [sum19]
    simp only [pay42_apply, pay35_apply, pay28_apply, pay21_apply, pay14_apply, pay17_apply, pay24_apply, pay31_apply,
      pay38_apply, pay45_apply, zero_add]
  · -- the nineteen guarded scores, class by class
    rw [sum19]
    simp only [pay43_apply, pay36_apply, pay29_apply, pay22_apply, pay15_apply, pay16_apply, pay23_apply, pay30_apply,
      pay37_apply, pay44_apply, pay11_apply, zero_add]
    rfl

end Cert.KernelIdeal.KPay

end
-- ==== Proof.KPayW.lean ====
/-
  The kernel's weight map at a pixel. The body casts the image of labels to reals, rotates it one step either way along
  the rows, masks the wrapped-around row with the lattice's bottom (top) element, takes the maximum (minimum) of the
  three, does the same along the columns, and stores `1 + (dil - ero > 0) * 1`. Read at pixel `(r, q)` that is the
  weight `wgtOf` of the image's labels: a rotation by 511 along an axis of 512 reads the next entry, a rotation by 1 the
  previous one, and the `iota` masks fire exactly at the last and the first coordinate.
-/
import proofs.«402932_j11811160064796_3_alg».proof.Proof.Gen.KernelIdeal.Skeleton
import proofs.«402932_j11811160064796_3_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option synthInstance.maxSize 4096

noncomputable section

open scoped BigOperators

namespace Cert.KernelIdeal.KPay

open Idealize.ShloMosaic Idealize.ShloMosaic.ValueIdx Idealize.SL.Sem
open Cert.KernelIdeal Cert.KernelIdeal.Gen Cert.EdgeLoss

/-! ## Words -/

private theorem top_word : Scalar.ofBits (F := Ideal) .f32 0x7F800000#32 = (⊤ : EReal) := by
  show Ideal.ofBits .f32 0x7F800000#32 = ⊤
  simp [Ideal.ofBits, Ideal.ieee]

private theorem bot_word : Scalar.ofBits (F := Ideal) .f32 0xFF800000#32 = (⊥ : EReal) := by
  show Ideal.ofBits .f32 0xFF800000#32 = ⊥
  simp [Ideal.ofBits, Ideal.ieee]

/-- Equality of two small naturals, compared as 32-bit words. -/
private theorem cmpi_eq_ofNat (n m : Nat) (hn : n < 2 ^ 32) (hm : m < 2 ^ 32) :
    IntOp.cmpi .eq (BitVec.ofNat 32 n) (BitVec.ofNat 32 m) = if n = m then 1#1 else 0#1 := by
  unfold IntOp.cmpi
  by_cases h : n = m
  · subst h
    rw [if_pos rfl]
    simp
  · rw [if_neg h]
    have hne : (BitVec.ofNat 32 n == BitVec.ofNat 32 m) = false := by
      rw [beq_eq_false_iff_ne]
      intro e
      apply h
      have h' := congrArg BitVec.toNat e
      rwa [BitVec.toNat_ofNat, BitVec.toNat_ofNat, Nat.mod_eq_of_lt hn, Nat.mod_eq_of_lt hm] at h'
    simp [hne]

/-- A select on "this small natural is `m`". -/
private theorem select_cmpi_eq {α : Type} (n m : Nat) (hn : n < 2 ^ 32) (hm : m < 2 ^ 32) (a c : α) :
    Scalar.select (IntOp.cmpi .eq (BitVec.ofNat 32 n) (BitVec.ofNat 32 m)) a c = if n = m then a else c := by
  rw [cmpi_eq_ofNat n m hn hm]
  by_cases h : n = m
  · rw [if_pos h, if_pos h, select_one]
  · rw [if_neg h, if_neg h, select_zero]

/-! ## A rotation by one step either way, read at a pixel -/

section Rot
variable {α : Type}

private theorem rot0_next (x : S512x512.Idx → α) (hR : S512x512.Rotates 0 none) (r q : Fin 512) (h : r.val + 1 < 512) :
    dynamicRotate 0 511#32 none x hR (ix2 r q) = x (ix2 ⟨r.val + 1, h⟩ q) := by
  refine dynamicRotate_apply 0 511#32 x hR (ix2 r q) (ix2 ⟨r.val + 1, h⟩ q) ?_
  intro b
  match b with
  | ⟨0, hlt⟩ =>
    have h0 : (⟨0, hlt⟩ : Fin S512x512.rank) = 0 := Fin.ext rfl
    rw [if_pos h0]
    show r.val + 1 = (r.val + 512 - 511 % 512) % 512
    omega
  | ⟨1, hlt⟩ =>
    have h1 : ¬ (⟨1, hlt⟩ : Fin S512x512.rank) = 0 := fun e => Nat.one_ne_zero (congrArg Fin.val e)
    rw [if_neg h1]

private theorem rot0_prev (x : S512x512.Idx → α) (hR : S512x512.Rotates 0 none) (r q : Fin 512) (h : 0 < r.val) :
    dynamicRotate 0 1#32 none x hR (ix2 r q) = x (ix2 ⟨r.val - 1, by omega⟩ q) := by
  refine dynamicRotate_apply 0 1#32 x hR (ix2 r q) (ix2 ⟨r.val - 1, by omega⟩ q) ?_
  intro b
  match b with
  | ⟨0, hlt⟩ =>
    have h0 : (⟨0, hlt⟩ : Fin S512x512.rank) = 0 := Fin.ext rfl
    rw [if_pos h0]
    show r.val - 1 = (r.val + 512 - 1 % 512) % 512
    omega
  | ⟨1, hlt⟩ =>
    have h1 : ¬ (⟨1, hlt⟩ : Fin S512x512.rank) = 0 := fun e => Nat.one_ne_zero (congrArg Fin.val e)
    rw [if_neg h1]

private theorem rot1_next (x : S512x512.Idx → α) (hR : S512x512.Rotates 1 none) (r q : Fin 512) (h : q.val + 1 < 512) :
    dynamicRotate 1 511#32 none x hR (ix2 r q) = x (ix2 r ⟨q.val + 1, h⟩) := by
  refine dynamicRotate_apply 1 511#32 x hR (ix2 r q) (ix2 r ⟨q.val + 1, h⟩) ?_
  intro b
  match b with
  | ⟨0, hlt⟩ =>
    have h0 : ¬ (⟨0, hlt⟩ : Fin S512x512.rank) = 1 := fun e => Nat.zero_ne_one (congrArg Fin.val e)
    rw [if_neg h0]
  | ⟨1, hlt⟩ =>
    have h1 : (⟨1, hlt⟩ : Fin S512x512.rank) = 1 := Fin.ext rfl
    rw [if_pos h1]
    show q.val + 1 = (q.val + 512 - 511 % 512) % 512
    omega

private theorem rot1_prev (x : S512x512.Idx → α) (hR : S512x512.Rotates 1 none) (r q : Fin 512) (h : 0 < q.val) :
    dynamicRotate 1 1#32 none x hR (ix2 r q) = x (ix2 r ⟨q.val - 1, by omega⟩) := by
  refine dynamicRotate_apply 1 1#32 x hR (ix2 r q) (ix2 r ⟨q.val - 1, by omega⟩) ?_
  intro b
  match b with
  | ⟨0, hlt⟩ =>
    have h0 : ¬ (⟨0, hlt⟩ : Fin S512x512.rank) = 1 := fun e => Nat.zero_ne_one (congrArg Fin.val e)
    rw [if_neg h0]
  | ⟨1, hlt⟩ =>
    have h1 : (⟨1, hlt⟩ : Fin S512x512.rank) = 1 := Fin.ext rfl
    rw [if_pos h1]
    show q.val - 1 = (q.val + 512 - 1 % 512) % 512
    omega

/-! ## The masked rotations are the clipped neighbours -/

/-- The row below, `fill` in the last row. -/
private theorem next_row (fill : α) (x : S512x512.Idx → α) (hI : S512x512.Iotas .tc 32 [0]) (hR : S512x512.Rotates 0 none)
    (r q : Fin 512) :
    select (cmpi .eq (iota .tc S512x512 32 [0] hI) (broadcast S512x512 511#32)) (broadcast S512x512 fill)
        (dynamicRotate 0 511#32 none x hR) (ix2 r q)
      = nextOr fill (fun r' => x (ix2 r' q)) r := by
  show Scalar.select (IntOp.cmpi .eq (iota .tc S512x512 32 [0] hI (ix2 r q)) 511#32) fill
      (dynamicRotate 0 511#32 none x hR (ix2 r q)) = _
  rw [iota_single_apply]
  show Scalar.select (IntOp.cmpi .eq (BitVec.ofNat 32 r.val) (BitVec.ofNat 32 511)) fill _ = _
  rw [select_cmpi_eq r.val 511 (by omega) (by omega)]
  unfold nextOr
  by_cases h : r.val + 1 < 512
  · rw [dif_pos h, if_neg (by omega), rot0_next x hR r q h]
  · rw [dif_neg h, if_pos (by omega)]

/-- The row above, `fill` in the first row. -/
private theorem prev_row (fill : α) (x : S512x512.Idx → α) (hI : S512x512.Iotas .tc 32 [0]) (hR : S512x512.Rotates 0 none)
    (r q : Fin 512) :
    select (cmpi .eq (iota .tc S512x512 32 [0] hI) (broadcast S512x512 0#32)) (broadcast S512x512 fill)
        (dynamicRotate 0 1#32 none x hR) (ix2 r q)
      = prevOr fill (fun r' => x (ix2 r' q)) r := by
  show Scalar.select (IntOp.cmpi .eq (iota .tc S512x512 32 [0] hI (ix2 r q)) 0#32) fill
      (dynamicRotate 0 1#32 none x hR (ix2 r q)) = _
  rw [iota_single_apply]
  show Scalar.select (IntOp.cmpi .eq (BitVec.ofNat 32 r.val) (BitVec.ofNat 32 0)) fill _ = _
  rw [select_cmpi_eq r.val 0 (by omega) (by omega)]
  unfold prevOr
  by_cases h : 0 < r.val
  · rw [dif_pos h, if_neg (by omega), rot0_prev x hR r q h]
  · rw [dif_neg h, if_pos (by omega)]

/-- The column to the right, `fill` in the last column. -/
private theorem next_col (fill : α) (x : S512x512.Idx → α) (hI : S512x512.Iotas .tc 32 [1]) (hR : S512x512.Rotates 1 none)
    (r q : Fin 512) :
    select (cmpi .eq (iota .tc S512x512 32 [1] hI) (broadcast S512x512 511#32)) (broadcast S512x512 fill)
        (dynamicRotate 1 511#32 none x hR) (ix2 r q)
      = nextOr fill (fun q' => x (ix2 r q')) q := by
  show Scalar.select (IntOp.cmpi .eq (iota .tc S512x512 32 [1] hI (ix2 r q)) 511#32) fill
      (dynamicRotate 1 511#32 none x hR (ix2 r q)) = _
  rw [iota_single_apply]
  show Scalar.select (IntOp.cmpi .eq (BitVec.ofNat 32 q.val) (BitVec.ofNat 32 511)) fill _ = _
  rw [select_cmpi_eq q.val 511 (by omega) (by omega)]
  unfold nextOr
  by_cases h : q.val + 1 < 512
  · rw [dif_pos h, if_neg (by omega), rot1_next x hR r q h]
  · rw [dif_neg h, if_pos (by omega)]

/-- The column to the left, `fill` in the first column. -/
private theorem prev_col (fill : α) (x : S512x512.Idx → α) (hI : S512x512.Iotas .tc 32 [1]) (hR : S512x512.Rotates 1 none)
    (r q : Fin 512) :
    select (cmpi .eq (iota .tc S512x512 32 [1] hI) (broadcast S512x512 0#32)) (broadcast S512x512 fill)
        (dynamicRotate 1 1#32 none x hR) (ix2 r q)
      = prevOr fill (fun q' => x (ix2 r q')) q := by
  show Scalar.select (IntOp.cmpi .eq (iota .tc S512x512 32 [1] hI (ix2 r q)) 0#32) fill
      (dynamicRotate 1 1#32 none x hR (ix2 r q)) = _
  rw [iota_single_apply]
  show Scalar.select (IntOp.cmpi .eq (BitVec.ofNat 32 q.val) (BitVec.ofNat 32 0)) fill _ = _
  rw [select_cmpi_eq q.val 0 (by omega) (by omega)]
  unfold prevOr
  by_cases h : 0 < q.val
  · rw [dif_pos h, if_neg (by omega), rot1_prev x hR r q h]
  · rw [dif_neg h, if_pos (by omega)]

end Rot

/-! ## The kernel's three-entry window along an axis, as a vector -/

/-- `op` of a vector, its rows shifted up and its rows shifted down, the row wrapped around replaced by the word `w`. -/
private def rowVec (op : FVec Ideal S512x512 .f32 → FVec Ideal S512x512 .f32 → FVec Ideal S512x512 .f32) (w : BitVec 32)
    (X : FVec Ideal S512x512 .f32) : FVec Ideal S512x512 .f32 :=
  op (op X (select (cmpi .eq (iota .tc S512x512 32 [0] iota_S512x512_d0_w32) (broadcast S512x512 511#32))
        (broadcast S512x512 (Scalar.ofBits .f32 w)) (dynamicRotate 0 511#32 none X rotates_S512x512_d0)))
    (select (cmpi .eq (iota .tc S512x512 32 [0] iota_S512x512_d0_w32) (broadcast S512x512 0#32))
        (broadcast S512x512 (Scalar.ofBits .f32 w)) (dynamicRotate 0 1#32 none X rotates_S512x512_d0))

/-- The same along the columns. -/
private def colVec (op : FVec Ideal S512x512 .f32 → FVec Ideal S512x512 .f32 → FVec Ideal S512x512 .f32) (w : BitVec 32)
    (X : FVec Ideal S512x512 .f32) : FVec Ideal S512x512 .f32 :=
  op (op X (select (cmpi .eq (iota .tc S512x512 32 [1] iota_S512x512_d1_w32) (broadcast S512x512 511#32))
        (broadcast S512x512 (Scalar.ofBits .f32 w)) (dynamicRotate 1 511#32 none X rotates_S512x512_d1)))
    (select (cmpi .eq (iota .tc S512x512 32 [1] iota_S512x512_d1_w32) (broadcast S512x512 0#32))
        (broadcast S512x512 (Scalar.ofBits .f32 w)) (dynamicRotate 1 1#32 none X rotates_S512x512_d1))

private theorem rowVec_max_apply (X : FVec Ideal S512x512 .f32) (r q : Fin 512) :
    rowVec maximumf 0xFF800000#32 X (ix2 r q) = rowMax (fun r' q' => X (ix2 r' q')) r q := by
  unfold rowVec
  rw [maximumf_apply, maximumf_apply, next_row, prev_row, bot_word]
  rfl

private theorem rowVec_min_apply (X : FVec Ideal S512x512 .f32) (r q : Fin 512) :
    rowVec minimumf 0x7F800000#32 X (ix2 r q) = rowMin (fun r' q' => X (ix2 r' q')) r q := by
  unfold rowVec
  rw [minimumf_apply, minimumf_apply, next_row, prev_row, top_word]
  rfl

private theorem colVec_max_apply (Y : FVec Ideal S512x512 .f32) (r q : Fin 512) :
    colVec maximumf 0xFF800000#32 Y (ix2 r q)
      = max (max (Y (ix2 r q)) (nextOr ⊥ (fun q' => Y (ix2 r q')) q)) (prevOr ⊥ (fun q' => Y (ix2 r q')) q) := by
  unfold colVec
  rw [maximumf_apply, maximumf_apply, next_col, prev_col, bot_word]

private theorem colVec_min_apply (Y : FVec Ideal S512x512 .f32) (r q : Fin 512) :
    colVec minimumf 0x7F800000#32 Y (ix2 r q)
      = min (min (Y (ix2 r q)) (nextOr ⊤ (fun q' => Y (ix2 r q')) q)) (prevOr ⊤ (fun q' => Y (ix2 r q')) q) := by
  unfold colVec
  rw [minimumf_apply, minimumf_apply, next_col, prev_col, top_word]

/-! ## The payloads at a pixel -/

/-- The block's labels as reals. -/
private abbrev Lb (x1 : Vec Ideal S1x512x512 .i32) : Fin 512 → Fin 512 → EReal :=
  fun r' q' => (((x1 (ix3 (0 : Fin 1) r' q')).toInt : ℝ) : EReal)

/-- The cast of the labels to reals, at a pixel. -/
private theorem pay3_apply (x1 : Vec Ideal S1x512x512 .i32) (r q : Fin 512) :
    k0_pay3 (F := Ideal) x1 (ix2 r q) = Lb x1 r q := by
  have hc : shapeCast S512x512 x1 shapeCasts_S1x512x512_S512x512 (ix2 r q) = x1 (ix3 (0 : Fin 1) r q) := by
    refine (shapeCast_dropUnit_apply (![512, 512] : Fin 2 → Nat) x1 shapeCasts_S1x512x512_S512x512 (ix2 r q)).trans ?_
    refine congrArg x1 (funext fun a => ?_)
    match a with
    | ⟨0, _⟩ => rfl
    | ⟨1, _⟩ => rfl
    | ⟨2, _⟩ => rfl
  unfold k0_pay3
  show FloatOps.sitofp (F := Ideal) .f32 (shapeCast S512x512 x1 shapeCasts_S1x512x512_S512x512 (ix2 r q)) = _
  rw [hc]
  rfl

private theorem pay3_fun (x1 : Vec Ideal S1x512x512 .i32) :
    (fun r' q' => k0_pay3 (F := Ideal) x1 (ix2 r' q')) = Lb x1 :=
  funext fun r' => funext fun q' => pay3_apply x1 r' q'

/-- The row minimum, at a pixel. -/
private theorem pay6_apply (x1 : Vec Ideal S1x512x512 .i32) (r q : Fin 512) :
    k0_pay6 (F := Ideal) x1 (ix2 r q) = rowMin (Lb x1) r q := by
  show rowVec minimumf 0x7F800000#32 (k0_pay3 x1) (ix2 r q) = _
  rw [rowVec_min_apply, pay3_fun]

/-- The row maximum followed by the column maximum, at a pixel. -/
private theorem pay7_apply (x1 : Vec Ideal S1x512x512 .i32) (r q : Fin 512) :
    k0_pay7 (F := Ideal) x1 (ix2 r q) = dil (Lb x1) r q := by
  show colVec maximumf 0xFF800000#32 (rowVec maximumf 0xFF800000#32 (k0_pay3 x1)) (ix2 r q) = _
  rw [colVec_max_apply]
  simp only [rowVec_max_apply]
  rw [pay3_fun]
  rfl

/-- A one-bit word widened to 32 bits and read as a signed integer is the bit. -/
private theorem sitofp_bit (c : BitVec 1) :
    FloatOps.sitofp (F := Ideal) .f32 (c.setWidth 32) = (((c.toNat : ℝ)) : EReal) := by
  show ((((c.setWidth 32).toInt : ℝ)) : EReal) = _
  have h : (c.setWidth 32).toInt = (c.toNat : Int) := by
    rcases BitVec.eq_zero_or_eq_one c with h | h <;> subst h <;> decide
  rw [h, Int.cast_natCast]

/-- The stored weight map, at pixel `(r, q)`, is the weight of the block's labels. -/
theorem wmap_apply (x1 : Vec Ideal S1x512x512 .i32) (r q : Fin 512) :
    k0_pay9 (F := Ideal) (iota .tc S512x512 32 [1] iota_S512x512_d1_w32) (k0_pay6 x1) (k0_pay7 x1) (k0_pay8 x1) (ix2 r q)
      = wgtOf (fun r' q' => (((x1 (ix3 (0 : Fin 1) r' q')).toInt : ℝ) : EReal)) r q := by
  have hero : ∀ Y : FVec Ideal S512x512 .f32,
      minimumf (minimumf Y (select (cmpi .eq (iota .tc S512x512 32 [1] iota_S512x512_d1_w32) (broadcast S512x512 511#32))
          (broadcast S512x512 (Scalar.ofBits .f32 0x7F800000#32)) (dynamicRotate 1 511#32 none Y rotates_S512x512_d1)))
        (select (cmpi .eq (iota .tc S512x512 32 [1] iota_S512x512_d1_w32) (broadcast S512x512 0#32))
          (broadcast S512x512 (Scalar.ofBits .f32 0x7F800000#32)) (dynamicRotate 1 1#32 none Y rotates_S512x512_d1)) (ix2 r q)
        = min (min (Y (ix2 r q)) (nextOr ⊤ (fun q' => Y (ix2 r q')) q)) (prevOr ⊤ (fun q' => Y (ix2 r q')) q) :=
    fun Y => colVec_min_apply Y r q
  unfold k0_pay9 k0_pay8
  simp only [shapeCast_self, addf_apply, mulf_apply, broadcast_apply, sitofp_apply, extui_apply, cmpf_apply, subf_apply]
  rw [hero, pay7_apply, sitofp_bit]
  simp only [pay6_apply]
  rfl

end Cert.KernelIdeal.KPay

end
-- ==== Proof.KPoints.lean ====
/-
  What the grid's points leave, as numbers. Point `t` is tile `t % 2` of image `t / 2`. Its step of the accumulator adds
  to what the accumulator held the sum over the tile's pixels of the pixel's cross-entropy times the pixel's entry of the
  weight map the step reads. At an even point the weight map is the one the point itself has just stored, the weights of
  the image's labels, and the accumulator starts from zero; at the odd point after it the weight map and the accumulator
  are what the even point left. So the entry the odd point writes back is zero plus the first tile's sum plus the second
  tile's sum.
-/
import proofs.«402932_j11811160064796_3_alg».proof.Proof.KPieces
import proofs.«402932_j11811160064796_3_alg».proof.Proof.KBlocks
import proofs.«402932_j11811160064796_3_alg».proof.Proof.KPayA
import proofs.«402932_j11811160064796_3_alg».proof.Proof.KPayW
import proofs.«402932_j11811160064796_3_alg».proof.Proof.Spec

set_option maxRecDepth 16384

noncomputable section

open scoped BigOperators

namespace Cert.KernelIdeal.KPoints

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.KBody Cert.KernelIdeal.KBlocks Cert.KernelIdeal.KPay Cert.EdgeLoss

/-! ## The tile's loads, read at an index -/

theorem chan_apply (x0 : Vec Ideal S1x19x256x512 .f32) (cc : Fin 19) (r' : Fin 256) (q : Fin 512) :
    chan x0 cc (ix4 (0 : Fin 1) (0 : Fin 1) r' q) = x0 (ix4 (0 : Fin 1) cc r' q) := by
  show x0 _ = x0 _
  refine congrArg x0 (funext fun a => Fin.ext ?_)
  match a with
  | ⟨0, _⟩ => show 0 + 1 * (0 : ℕ) = 0; omega
  | ⟨1, _⟩ => show cc.val + 1 * (0 : ℕ) = cc.val; omega
  | ⟨2, _⟩ => show 0 + 1 * r'.val = r'.val; omega
  | ⟨3, _⟩ => show 0 + 1 * q.val = q.val; omega

/-- Row `r'` of the tile at a point, as a row of the image. -/
def rowAt (i : grid0.Coords) (r' : Fin 256) : Fin 512 := ⟨rowOff i + r'.val, by have := rowOff_le i; omega⟩

theorem tileT_apply (i : grid0.Coords) (x1 : Vec Ideal S1x512x512 .i32) (r' : Fin 256) (q : Fin 512) :
    tileT i x1 (ix3 (0 : Fin 1) r' q) = x1 (ix3 (0 : Fin 1) (rowAt i r') q) := by
  show x1 _ = x1 _
  refine congrArg x1 (funext fun a => Fin.ext ?_)
  match a with
  | ⟨0, _⟩ => show 0 + 1 * (0 : ℕ) = 0; omega
  | ⟨1, _⟩ => show rowOff i + 1 * r'.val = rowOff i + r'.val; omega
  | ⟨2, _⟩ => show 0 + 1 * q.val = q.val; omega

theorem tileW_apply (i : grid0.Coords) (W : Vec Ideal S512x512 .f32) (r' : Fin 256) (q : Fin 512) :
    tileW i W (ix2 r' q) = W (ix2 (rowAt i r') q) := by
  show W _ = W _
  refine congrArg W (funext fun a => Fin.ext ?_)
  match a with
  | ⟨0, _⟩ => show rowOff i + 1 * r'.val = rowOff i + r'.val; omega
  | ⟨1, _⟩ => show 0 + 1 * q.val = q.val; omega

/-- One step of the accumulator, as a number: what it held, plus the tile's weighted cross-entropy. -/
theorem accOf_apply (i : grid0.Coords) (x0 : Vec Ideal S1x19x256x512 .f32) (x1 : Vec Ideal S1x512x512 .i32)
    (W : Vec Ideal S512x512 .f32) (acc : Vec Ideal S1x1 .f32) :
    accOf i x0 x1 W acc (ix2 (0 : Fin 1) (0 : Fin 1))
      = acc (ix2 (0 : Fin 1) (0 : Fin 1)) + ∑ r' : Fin 256, ∑ q : Fin 512,
          cePix (fun cc => x0 (ix4 (0 : Fin 1) cc r' q)) (x1 (ix3 (0 : Fin 1) (rowAt i r') q)) * W (ix2 (rowAt i r') q) := by
  unfold accOf
  refine (accStep_apply (tileT i x1) (tileW i W) (chan x0) acc).trans ?_
  simp only [chan_apply, tileT_apply, tileW_apply]

/-! ## Which case a point is in, and what it leaves -/

variable (m : (ℓ : Loc nD τ sig) → Buf (Elt Ideal) ℓ)

/-- The arrays as the region finds them, and a point's blocks of them. -/
abbrev Parr (c : Dev nD) : SP.Idx → EReal := V m c main_arg0
abbrev Tarr (c : Dev nD) : ST.Idx → BitVec 32 := V m c main_arg1
abbrev xblk (c : Dev nD) (t : Fin cfg0.N) : Vec Ideal S1x19x256x512 .f32 := iblk m c 0 t
abbrev tblk (c : Dev nD) (t : Fin cfg0.N) : Vec Ideal S1x512x512 .i32 := iblk m c 1 t

theorem even_w (c : Dev nD) (t : Fin cfg0.N) (h0 : t.val % 2 = 0) (h1 : ¬t.val % 2 = 1) :
    (outsAt0 m c t.val t.isLt).2.1 = wmap (tblk m c t) := by
  rw [outsAt0_A m c t h0 h1]
  dsimp only
  exact sA0 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t)

theorem even_acc (c : Dev nD) (t : Fin cfg0.N) (h0 : t.val % 2 = 0) (h1 : ¬t.val % 2 = 1) :
    (outsAt0 m c t.val t.isLt).2.2 = accOf (grid0.coords t) (xblk m c t) (tblk m c t) (wmap (tblk m c t)) (k0_pay10 (F := Ideal)) := by
  rw [outsAt0_A m c t h0 h1]
  dsimp only
  exact sA1 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t)

theorem odd_out (c : Dev nD) (t : Fin cfg0.N) (h0 : ¬t.val % 2 = 0) (h1 : t.val % 2 = 1) :
    (outsAt0 m c t.val t.isLt).1
      = k0_pay2 (accOf (grid0.coords t) (xblk m c t) (tblk m c t) (outsAt0 m c (t.val - 1) (Nat.lt_of_le_of_lt (Nat.sub_le _ _) t.isLt)).2.1 (outsAt0 m c (t.val - 1) (Nat.lt_of_le_of_lt (Nat.sub_le _ _) t.isLt)).2.2) := by
  rw [outsAt0_B m c t h0 h1]
  dsimp only
  exact oB2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2

/-! ## The numbers -/

/-- The tile of a point. -/
def tileOf (t : Fin cfg0.N) : Fin 2 := ⟨t.val % 2, by omega⟩

theorem rowAt_coords (t : Fin cfg0.N) (r' : Fin 256) : rowAt (grid0.coords t) r' = tileRow (tileOf t) r' := by
  apply Fin.ext
  show rowOff (grid0.coords t) + r'.val = 256 * (t.val % 2) + r'.val
  rw [rowOff_eq, coord1 t]

/-- The weight map of a point's block of labels is the weights of its image. -/
theorem wmap_tblk (c : Dev nD) (t : Fin cfg0.N) (r q : Fin 512) :
    wmap (tblk m c t) (ix2 r q) = wgt (Tarr m c) (img t) r q := by
  unfold wmap
  rw [wmap_apply (tblk m c t) r q]
  unfold wgt
  congr 1
  funext r' q'
  show (((iblk m c 1 t (ix3 (0 : Fin 1) r' q')).toInt : ℝ) : EReal) = _
  rw [blkT m c t r' q']
  rfl

/-- A point's step over a weight map that is its image's weights: what the accumulator held, plus the tile's sum. -/
theorem step_val (c : Dev nD) (t : Fin cfg0.N) (W : Vec Ideal S512x512 .f32) (acc : Vec Ideal S1x1 .f32)
    (hW : ∀ r q : Fin 512, W (ix2 r q) = wgt (Tarr m c) (img t) r q) :
    accOf (grid0.coords t) (xblk m c t) (tblk m c t) W acc (ix2 (0 : Fin 1) (0 : Fin 1))
      = acc (ix2 (0 : Fin 1) (0 : Fin 1)) + tileSum (Parr m c) (Tarr m c) (img t) (tileOf t) := by
  refine (accOf_apply (grid0.coords t) (xblk m c t) (tblk m c t) W acc).trans ?_
  refine congrArg (fun z => acc (ix2 (0 : Fin 1) (0 : Fin 1)) + z) ?_
  unfold tileSum
  refine Finset.sum_congr rfl fun r' _ => Finset.sum_congr rfl fun q _ => ?_
  have e1 : (fun cc : Fin 19 => xblk m c t (ix4 (0 : Fin 1) cc r' q))
      = fun cc => Parr m c (ix4 (img t) cc (tileRow (tileOf t) r') q) := funext fun cc => blkP m c t cc r' q
  have e2 : tblk m c t (ix3 (0 : Fin 1) (tileRow (tileOf t) r') q)
      = Tarr m c (ix3 (img t) (tileRow (tileOf t) r') q) := blkT m c t (tileRow (tileOf t) r') q
  rw [rowAt_coords t r', hW, e1, e2]
  rfl

/-- The accumulator's reset value is zero. -/
theorem pay10_zero : (k0_pay10 (F := Ideal)) (ix2 (0 : Fin 1) (0 : Fin 1)) = zeroW := rfl

/-- The output block is the accumulator. -/
theorem pay2_apply (v : Vec Ideal S1x1 .f32) :
    k0_pay2 v (ix3 (0 : Fin 1) (0 : Fin 1) (0 : Fin 1)) = v (ix2 (0 : Fin 1) (0 : Fin 1)) := by
  unfold k0_pay2
  refine (shapeCast_addUnit_apply ![1, 1] v shapeCasts_S1x1_S1x1x1 (ix3 (0 : Fin 1) (0 : Fin 1) (0 : Fin 1))).trans ?_
  refine congrArg v (funext fun a => ?_)
  match a with
  | ⟨0, _⟩ => rfl
  | ⟨1, _⟩ => rfl

/-- After an even point the accumulator holds zero plus the first tile's sum. -/
theorem even_val (c : Dev nD) (t : Fin cfg0.N) (h0 : t.val % 2 = 0) :
    (outsAt0 m c t.val t.isLt).2.2 (ix2 (0 : Fin 1) (0 : Fin 1))
      = zeroW + tileSum (Parr m c) (Tarr m c) (img t) (tileOf t) := by
  rw [even_acc m c t h0 (by omega), step_val m c t _ _ (wmap_tblk m c t), pay10_zero]

/-- The entry an odd point writes back: zero, plus the first tile's sum, plus the second tile's. -/
theorem odd_val (c : Dev nD) (t : Fin cfg0.N) (h1 : t.val % 2 = 1) :
    (outsAt0 m c t.val t.isLt).1 (ix3 (0 : Fin 1) (0 : Fin 1) (0 : Fin 1))
      = (zeroW + tileSum (Parr m c) (Tarr m c) (img t) 0) + tileSum (Parr m c) (Tarr m c) (img t) 1 := by
  have hN := val_lt t
  -- the point before, an even one of the same image
  let tp : Fin cfg0.N := ⟨t.val - 1, lt_N (by omega)⟩
  have hp0 : tp.val % 2 = 0 := by show (t.val - 1) % 2 = 0; omega
  have himg : img tp = img t := by apply Fin.ext; show (t.val - 1) / 2 = t.val / 2; omega
  have htile : tileOf t = 1 := by apply Fin.ext; show t.val % 2 = 1; exact h1
  have htile0 : tileOf tp = 0 := by apply Fin.ext; show (t.val - 1) % 2 = 0; omega
  have hW : ∀ r q : Fin 512, (outsAt0 m c tp.val tp.isLt).2.1 (ix2 r q) = wgt (Tarr m c) (img t) r q := fun r q => by
    rw [even_w m c tp hp0 (by omega), wmap_tblk m c tp r q, himg]
  have hacc : (outsAt0 m c tp.val tp.isLt).2.2 (ix2 (0 : Fin 1) (0 : Fin 1))
      = zeroW + tileSum (Parr m c) (Tarr m c) (img t) 0 := by
    rw [even_val m c tp hp0, himg, htile0]
  rw [odd_out m c t (by omega) h1, pay2_apply]
  show accOf (grid0.coords t) (xblk m c t) (tblk m c t) (outsAt0 m c tp.val tp.isLt).2.1 (outsAt0 m c tp.val tp.isLt).2.2
      (ix2 (0 : Fin 1) (0 : Fin 1)) = _
  rw [step_val m c t _ _ hW, hacc, htile]

end Cert.KernelIdeal.KPoints

end
-- ==== Proof.Tiles.lean ====
/-
  The mean from the sixteen partial sums. Each image's partial sum is what its first tile's 256 rows contribute, added to
  zero, plus what its second tile's 256 rows contribute; the 512 rows of an image are those two runs of 256, so the
  partial sums add up to the sum over all pixels, and the mean is that divided by the number of pixels. Addition of
  extended reals is commutative and associative, so nothing here needs the terms to be finite.
-/
import proofs.«402932_j11811160064796_3_alg».proof.Proof.Spec
import Idealize.ShloMosaic.PureOps.Ideal.Laws
import Idealize.ShloMosaic.Lib.ValueIdx

noncomputable section

open scoped BigOperators

namespace Cert.EdgeLoss

open Idealize.ShloMosaic Idealize.ShloMosaic.ValueIdx

/-- The word of the float zero is the extended real `0`. -/
private theorem zeroW_eq : zeroW = 0 := Ideal.ofBits_zero_f32

/-- An index of the array of partial sums is the image it belongs to: the two trailing axes have one coordinate. -/
private def idxEquiv16 : (⟨3, ![16, 1, 1]⟩ : Shape).Idx ≃ Fin 16 where
  toFun j := j 0
  invFun b := ix3 b (0 : Fin 1) (0 : Fin 1)
  left_inv j := by
    funext a
    match a with
    | ⟨0, _⟩ => rfl
    | ⟨1, _⟩ =>
      have h1 : (j 1).val < 1 := (j 1).isLt
      exact Fin.ext (by show 0 = (j 1).val; omega)
    | ⟨2, _⟩ =>
      have h2 : (j 2).val < 1 := (j 2).isLt
      exact Fin.ext (by show 0 = (j 2).val; omega)
  right_inv _ := rfl

/-- So a sum over the partial sums' indices is the sum over the sixteen images. -/
private theorem sum_idx16 (f : (⟨3, ![16, 1, 1]⟩ : Shape).Idx → EReal) :
    ∑ j, f j = ∑ b : Fin 16, f (ix3 b (0 : Fin 1) (0 : Fin 1)) :=
  (Equiv.sum_comp idxEquiv16.symm f).symm

/-- The 512 rows of an image are the 256 rows of its first tile followed by the 256 rows of its second. -/
private theorem sum_rows_split (f : Fin 512 → EReal) :
    ∑ r : Fin 512, f r = ∑ r' : Fin 256, f (tileRow 0 r') + ∑ r' : Fin 256, f (tileRow 1 r') := by
  have h0 : ∀ r' : Fin 256, tileRow 0 r' = Fin.castAdd 256 r' :=
    fun r' => Fin.ext (by show 256 * 0 + r'.val = r'.val; omega)
  have h1 : ∀ r' : Fin 256, tileRow 1 r' = Fin.natAdd 256 r' :=
    fun r' => Fin.ext (by show 256 * 1 + r'.val = 256 + r'.val; omega)
  simp only [h0, h1]
  exact Fin.sum_univ_add (M := EReal) (a := 256) (b := 256) f

/-- The sixteen partial sums, summed from zero and divided by the number of pixels, are the mean. -/
theorem mean_of_partials (p : SP.Idx → EReal) (t : ST.Idx → BitVec 32) (out : (⟨3, ![16, 1, 1]⟩ : Shape).Idx → EReal)
    (hout : ∀ b : Fin 16, out (ix3 b (0 : Fin 1) (0 : Fin 1)) = (zeroW + tileSum p t b 0) + tileSum p t b 1) :
    Ideal.div (zeroW + ∑ j : (⟨3, ![16, 1, 1]⟩ : Shape).Idx, out j) countW = Ideal.div (total p t) countW := by
  refine congrArg (fun x => Ideal.div x countW) ?_
  rw [zeroW_eq, zero_add, sum_idx16]
  unfold total
  refine Finset.sum_congr rfl (fun b _ => ?_)
  rw [hout b, zeroW_eq, zero_add, sum_rows_split (fun r => ∑ q : Fin 512, term p t b r q)]
  rfl

end Cert.EdgeLoss

end
-- ==== Proof.KFinal.lean ====
/-
  The kernel's result. After the run the array of sixteen partial sums holds, at image `b`, zero plus the first tile's sum
  plus the second tile's: each entry is written back once, by the second tile of its image. The lines after the region
  sum the sixteen entries from zero and divide by the number of pixels, which is the mean `G` of the argument arrays.
-/
import proofs.«402932_j11811160064796_3_alg».proof.Proof.KPoints
import proofs.«402932_j11811160064796_3_alg».proof.Proof.Tiles

set_option maxRecDepth 16384

noncomputable section

open scoped BigOperators

namespace Cert.KernelIdeal.KFinal

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.KBody Cert.KernelIdeal.KBlocks Cert.KernelIdeal.KPoints Cert.EdgeLoss

variable (m : (ℓ : Loc nD τ sig) → Buf (Elt Ideal) ℓ) (ρ : Dev nD → PrngReg)

/-- The sixteen partial sums after the run. -/
def Gout (c : Dev nD) : S16x1x1.Idx → EReal := fun j =>
  (zeroW + tileSum (Parr m c) (Tarr m c) ⟨(j 0).val, (j 0).isLt⟩ 0) + tileSum (Parr m c) (Tarr m c) ⟨(j 0).val, (j 0).isLt⟩ 1

/-- What a point that writes back writes: its entry of the partial sums. -/
theorem flushed2_eq (c : Dev nD) (t : Fin cfg0.N) (hf : (cfg0.win 2).flush t = true) :
    (dats m 0 c).flushed 2 t = ((cfg0.win 2).blk t).view.read (Elt Ideal) (Gout m c) := by
  have h1 : t.val % 2 = 1 := (flush0_2 t).mp hf
  show (cfg0.win 2).cut (grid0.coords t) ((dats m 0 c).after 2 t) = _
  rw [after0_2]
  funext y
  have hy : y = ix3 (0 : Fin 1) (0 : Fin 1) (0 : Fin 1) := by
    funext a
    match a with
    | ⟨0, _⟩ => exact Fin.ext (Nat.lt_one_iff.mp (y 0).isLt)
    | ⟨1, _⟩ => exact Fin.ext (Nat.lt_one_iff.mp (y 1).isLt)
    | ⟨2, _⟩ => exact Fin.ext (Nat.lt_one_iff.mp (y 2).isLt)
  rw [hy]
  show (outsAt0 m c t.val t.isLt).1 (ix3 (0 : Fin 1) (0 : Fin 1) (0 : Fin 1))
      = Gout m c (((cfg0.win 2).blk t).view.emb (ix3 (0 : Fin 1) (0 : Fin 1) (0 : Fin 1)))
  rw [odd_val m c t h1, emb2 t]
  rfl

/-- The array of partial sums after the run. -/
theorem final2 (c : Dev nD) : (dats m 0 c).arrAt 2 cfg0.N = Gout m c :=
  (dats m 0 c).arrAt_eq_of_cover 2 (Gout m c) (fun t hf => flushed2_eq m c t hf) cover2

/-- The lines after the region: the sum of the partial sums from zero, divided by the number of pixels, is the mean. -/
theorem tail_eq (c : Dev nD) :
    Pipeline.afterTail₀ cfgs (dats m) 0 (V0 m) [hostOps1] c main_v2
      = G (m ((c.tc : Thread nD τ).loc main_arg0)) (m ((c.tc : Thread nD τ).loc main_arg1)) := by
  unfold Pipeline.afterTail₀
  show StableHlo.after hostOps1 _ (Proc.devRef .tc main_v2) = _
  after_results
  rw [show Pipeline.withArrays (cfgs 0).spec c (V0 m c) (fun w => (dats m 0 c).arrAt w (cfgs 0).N) (Proc.devRef .tc main_v0) = Gout m c from
    (Pipeline.withArrays_arr spec0 launch0.win.arr_inj c _ _ 2).trans (final2 m c)]
  funext i
  show Ideal.div (Host.reduceAdd (F := Ideal) (Gout m c) (constant (F := Ideal) S_ .f32 0x00000000#32) reducesTo_S16x1x1_S_d0_1_2 h_S_ i)
      (Ideal.ofBits .f32 0x4A800000#32) = _
  have hsum : Host.reduceAdd (F := Ideal) (Gout m c) (constant (F := Ideal) S_ .f32 0x00000000#32) reducesTo_S16x1x1_S_d0_1_2 h_S_ i
      = zeroW + ∑ j : S16x1x1.Idx, Gout m c j := by
    generalize Gout m c = y0
    simp only [Host.reduceAdd, Ideal.hostReduceAdd_def]
    exact Ideal.hostReduceAdd_total reducesTo_S16x1x1_S_d0_1_2 (fun b => b.elim0) y0 _ i
  rw [hsum]
  exact mean_of_partials (Parr m c) (Tarr m c) (Gout m c) (fun b => rfl)

/-- The run, read: every weakly fair execution ends with the result at the mean of the weighted cross-entropy of the
    argument arrays, and the arguments unchanged. -/
theorem run : θ_run defs (onTc (τ := τ) (main (F := Ideal))) ⟨m, fun _ => 0, ρ⟩ fun r => ∀ c : Dev nD,
      r.2.mem ((c.tc : Thread nD τ).loc main_v2)
        = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v2 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KFinal

end
-- ==== Proof.lean ====
/-
  An edge-weighted cross-entropy, fused into one kernel, against its plain reference, over the extended reals.

  Both programs weight each pixel's cross-entropy by `1 + (dil - ero > 0) * 1`, where `dil` and `ero` are the largest and
  the smallest label in the pixel's 3 x 3 neighbourhood clipped to its image, and return the mean over all pixels.
  The kernel takes the neighbourhood separably, by one-step rotations along the rows and then the columns with the
  wrapped-around entry masked by the lattice's bottom or top; the reference takes it as one window reduction padded with
  the same element: both are the supremum, and the infimum, of the same at most nine labels. The kernel's cross-entropy
  is `log (sum of exp of the scores) - the score at the label`, the label's score picked by a sum over the classes of
  guarded terms; the reference's is the negated log-softmax gathered at the label, computed after shifting the scores by
  their maximum. For real scores the shift cancels, `log (sum of exp (x - M)) = log (sum of exp x) - M` for any real `M`,
  and for a label in `[0, 19)` the gather neither wraps nor falls back on its fill value: this is where the precondition
  is used, the scores finite and the labels in their range. The kernel sums an image's two tiles of 256 rows into one
  partial sum per image and the lines after it sum the sixteen partial sums; the reference sums all pixels at once:
  addition of extended reals is commutative and associative, so the groupings agree. Both then divide by the same word,
  the number of pixels.

  The kernel's frames are the generated ones; the reference's is its run with the result dropped. The idealization
  rewrote no operation, so there is nothing to preserve.
-/
import proofs.«402932_j11811160064796_3_alg».proof.Defs
import proofs.«402932_j11811160064796_3_alg».proof.Proof.Gen.Kernel
import proofs.«402932_j11811160064796_3_alg».proof.Proof.Gen.Kernel.Skeleton
import proofs.«402932_j11811160064796_3_alg».proof.Proof.Gen.Kernel.Launch
import proofs.«402932_j11811160064796_3_alg».proof.Proof.Gen.Kernel.Points
import proofs.«402932_j11811160064796_3_alg».proof.Proof.Gen.Kernel.Frame
import proofs.«402932_j11811160064796_3_alg».proof.Proof.Gen.KernelIdeal
import proofs.«402932_j11811160064796_3_alg».proof.Proof.Gen.KernelIdeal.Skeleton
import proofs.«402932_j11811160064796_3_alg».proof.Proof.Gen.KernelIdeal.Launch
import proofs.«402932_j11811160064796_3_alg».proof.Proof.Gen.KernelIdeal.Points
import proofs.«402932_j11811160064796_3_alg».proof.Proof.Gen.KernelIdeal.Frame
import proofs.«402932_j11811160064796_3_alg».proof.Proof.Gen.ReferenceIdeal
import proofs.«402932_j11811160064796_3_alg».proof.Proof.Gen.Pre_finite_inputs
import proofs.«402932_j11811160064796_3_alg».proof.Proof.RefRun
import proofs.«402932_j11811160064796_3_alg».proof.Proof.RefRead
import proofs.«402932_j11811160064796_3_alg».proof.Proof.RefTotal
import proofs.«402932_j11811160064796_3_alg».proof.Proof.PreDecode
import proofs.«402932_j11811160064796_3_alg».proof.Proof.KFinal
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the scores and the labels, the scores finite and the labels in `[0, 19)`, both programs end
    with the mean of the weighted cross-entropy of those arrays. -/
theorem algebraic : Cert.algebraic_KernelIdeal_ReferenceIdeal := by
  intro m ρ m' ρ' hpre hagree
  refine ⟨fun c => Cert.EdgeLoss.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KFinal.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, (hagree c).1, (hagree c).2]
  obtain ⟨hfin, hrange⟩ := Cert.PreDecode.decode _ _ (hpre c)
  exact Cert.ReferenceIdeal.RefValue.ref_eq _ _ hfin hrange

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
